-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S200000x64 : Shape := ⟨2, ![200000, 64]⟩
abbrev S9x150000 : Shape := ⟨2, ![9, 150000]⟩
abbrev S9x64x64 : Shape := ⟨3, ![9, 64, 64]⟩
abbrev S64 : Shape := ⟨1, ![64]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S9x64x64 : S_.BroadcastsInDim S9x64x64 (![] : Fin 0 → Fin S9x64x64.rank)
  reducesTo_S9x64x64_S_d0_1_2 : S9x64x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : IVec S200000x3 32) (main_arg1 : FVec F S200000x64 .f32) (main_arg2 : IVec S9x150000 32) (main_arg3 : IVec S9x150000 32) (main_arg4 : FVec F S9x64x64 .f32) (main_arg5 : FVec F S64 .f32) (main_arg6 : FVec F S64 .f32) (main_arg7 : FVec F S64 .f32) : IVec S_ 1 :=
  let main_v0 : FVec F S200000x64 .f32 := Host.absf main_arg1
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S9x64x64 .f32 := Host.absf main_arg4
  let main_cst_0 : FVec F S_ .f32 := constant S_ .f32 0x7F800000#32
  let main_v5 : FVec F S9x64x64 .f32 := broadcastInDim S9x64x64 ![] bcast_S_S9x64x64 main_cst_0
  let main_v6 : IVec S9x64x64 1 := cmpf .olt main_v4 main_v5
  let main_c_1 : IVec S_ 1 := constantI S_ 1 1#1
  let main_v7 : IVec S_ 1 := (fun x v => Host.reduce IntOp.andi x v reducesTo_S9x64x64_S_d0_1_2 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_v13 main_v16
-- ==== Kernel.lean ====
abbrev S200000x3 : Shape := ⟨2, ![200000, 3]⟩
abbrev S200000x64 : Shape := ⟨2, ![200000, 64]⟩
abbrev S9x150000 : Shape := ⟨2, ![9, 150000]⟩
abbrev S9x64x64 : Shape := ⟨3, ![9, 64, 64]⟩
abbrev S64 : Shape := ⟨1, ![64]⟩
abbrev S_ : Shape := ⟨0, ![]⟩
abbrev S9x150000x1 : Shape := ⟨3, ![9, 150000, 1]⟩
abbrev S9x150000x64 : Shape := ⟨3, ![9, 150000, 64]⟩
abbrev S1x30000x64 : Shape := ⟨3, ![1, 30000, 64]⟩
abbrev S1x64x64 : Shape := ⟨3, ![1, 64, 64]⟩
abbrev S30000x64 : Shape := ⟨2, ![30000, 64]⟩
abbrev S64x64 : Shape := ⟨2, ![64, 64]⟩
abbrev S1350000 : Shape := ⟨1, ![1350000]⟩
abbrev S1350000x64 : Shape := ⟨2, ![1350000, 64]⟩
abbrev S1350000x1 : Shape := ⟨2, ![1350000, 1]⟩
abbrev S1x64 : Shape := ⟨2, ![1, 64]⟩
abbrev S20000x64 : Shape := ⟨2, ![20000, 64]⟩

abbrev nBuf : Space → Nat
  | .hbm => 57
  | .vmem => 19
  | .smem => 0
  | _ => 0

abbrev bufTy : (tb : Table) → Fin (tcTables nBuf tb) → BufTy
  | .hbm, ⟨0, _⟩ => ⟨S200000x3, .i32⟩
  | .hbm, ⟨1, _⟩ => ⟨S200000x64, .f32⟩
  | .hbm, ⟨2, _⟩ => ⟨S9x150000, .i32⟩
  | .hbm, ⟨3, _⟩ => ⟨S9x150000, .i32⟩
  | .hbm, ⟨4, _⟩ => ⟨S9x64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S200000x64, .bf16⟩
  | .hbm, ⟨9, _⟩ => ⟨S9x64x64, .bf16⟩
  | .hbm, ⟨10, _⟩ => ⟨S_, .i32⟩
  | .hbm, ⟨11, _⟩ => ⟨S9x150000, .i32⟩
  | .hbm, ⟨12, _⟩ => ⟨S9x150000, .i1⟩
  | .hbm, ⟨13, _⟩ => ⟨S_, .i32⟩
  | .hbm, ⟨14, _⟩ => ⟨S9x150000, .i32⟩
  | .hbm, ⟨15, _⟩ => ⟨S9x150000, .i32⟩
  | .hbm, ⟨16, _⟩ => ⟨S9x150000, .i32⟩
  | .hbm, ⟨17, _⟩ => ⟨S9x150000x1, .i32⟩
  | .hbm, ⟨18, _⟩ => ⟨S9x150000x64, .bf16⟩
  | .hbm, ⟨19, _⟩ => ⟨S9x150000x64, .f32⟩
  | .hbm, ⟨20, _⟩ => ⟨S_, .f32⟩
  | .hbm, ⟨21, _⟩ => ⟨S200000x64, .f32⟩
  | .hbm, ⟨22, _⟩ => ⟨S1350000, .i32⟩
  | .hbm, ⟨23, _⟩ => ⟨S1350000x64, .f32⟩
  | .hbm, ⟨24, _⟩ => ⟨S_, .i32⟩
  | .hbm, ⟨25, _⟩ => ⟨S1350000, .i32⟩
  | .hbm, ⟨26, _⟩ => ⟨S1350000, .i1⟩
  | .hbm, ⟨27, _⟩ => ⟨S_, .i32⟩
  | .hbm, ⟨28, _⟩ => ⟨S1350000, .i32⟩
  | .hbm, ⟨29, _⟩ => ⟨S1350000, .i32⟩
  | .hbm, ⟨30, _⟩ => ⟨S1350000, .i32⟩
  | .hbm, ⟨31, _⟩ => ⟨S1350000x1, .i32⟩
  | .hbm, ⟨32, _⟩ => ⟨S200000x64, .f32⟩
  | .hbm, ⟨33, _⟩ => ⟨S1x64, .f32⟩
  | .hbm, ⟨34, _⟩ => ⟨S200000x64, .f32⟩
  | .hbm, ⟨35, _⟩ => ⟨S1x64, .f32⟩
  | .hbm, ⟨36, _⟩ => ⟨S1x64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S1x64, .f32⟩
  | .hbm, ⟨56, _⟩ => ⟨S200000x64, .f32⟩
  | .local _ .vmem, ⟨0, _⟩ => ⟨S1x30000x64, .bf16⟩
  | .local _ .vmem, ⟨1, _⟩ => ⟨S1x30000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x30000x64, .f32⟩
  | .local _ .vmem, ⟨5, _⟩ => ⟨S1x30000x64, .f32⟩
  | .local _ .vmem, ⟨6, _⟩ => ⟨S20000x64, .f32⟩
  | .local _ .vmem, ⟨7, _⟩ => ⟨S20000x64, .f32⟩
  | .local _ .vmem, ⟨8, _⟩ => ⟨S1x64, .f32⟩
  | .local _ .vmem, ⟨9, _⟩ => ⟨S20000x64, .f32⟩
  | .local _ .vmem, ⟨10, _⟩ => ⟨S20000x64, .f32⟩
  | .local _ .vmem, ⟨11, _⟩ => ⟨S1x64, .f32⟩
  | .local _ .vmem, ⟨12, _⟩ => ⟨S1x64, .f32⟩
  | .local _ .vmem, ⟨13, _⟩ => ⟨S20000x64, .f32⟩
  | .local _ .vmem, ⟨14, _⟩ => ⟨S20000x64, .f32⟩
  | .local _ .vmem, ⟨15, _⟩ => ⟨S1x64, .f32⟩
  | .local _ .vmem, ⟨16, _⟩ => ⟨S1x64, .f32⟩
  | .local _ .vmem, ⟨17, _⟩ => ⟨S20000x64, .f32⟩
  | .local _ .vmem, ⟨18, _⟩ => ⟨S20000x64, .f32⟩
  | _, _ => ⟨S200000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev main_v21_2 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨2, ![9, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x30000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x30000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  bcast_S_S9x150000 : S_.BroadcastsInDim S9x150000 (![] : Fin 0 → Fin S9x150000.rank)
  bcast_S9x150000_S9x150000x1_0_1 : S9x150000.BroadcastsInDim S9x150000x1 (![0, 1] : Fin 2 → Fin S9x150000x1.rank)
  inb_S1x30000x64_S1x30000x64_0_0_0 : ∀ a, (![0, 0, 0] : Fin 3 → Nat) a + S1x30000x64.size a ≤ S1x30000x64.size a
  h_S1x30000x64 : 0 < S1x30000x64.numel
  shapeCasts_S1x30000x64_S30000x64 : S1x30000x64.ShapeCasts S30000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S30000x64_S1x30000x64 : S30000x64.ShapeCasts S1x30000x64
  bcast_S_S200000x64 : S_.BroadcastsInDim S200000x64 (![] : Fin 0 → Fin S200000x64.rank)
  shapeCasts_S9x150000_S1350000 : S9x150000.ShapeCasts S1350000
  shapeCasts_S9x150000x64_S1350000x64 : S9x150000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  shapeCasts_S1x64_S1x64 : S1x64.ShapeCasts S1x64
  broadcasts_S1x64_S20000x64 : S1x64.Broadcasts S20000x64
  reduces_S20000x64_S64 : S20000x64.Reduces [0] S64
  shapeCasts_S1x64_S64 : S1x64.ShapeCasts S64
  bcast_S_S64 : S_.BroadcastsInDim S64 (![] : Fin 0 → Fin S64.rank)
  gather_S200000x64_S9x150000x1_S9x150000x64_2_0_n_n_0_2_164_wf : GatherDims.WF S200000x64 S9x150000x1 S9x150000x64 [2] [0] [] [0] [] 2 ![1, 64]
  dot_S30000x64_S64x64_S30000x64_1_0_0_1_n_n_wf : DotDims.WF S30000x64 S64x64 S30000x64 [1] [0] [0] [1] [] []
  scatter_S200000x64_S1350000x1_S1350000x64_1_0_0_1_wf : ScatterDims.WF S200000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x30000x64.size a ≤ S9x150000x64.size a
  hwx0_0 : ∀ i : grid0.Coords, EltTy.bits .bf16 = 32 ∨ (Rect.block (s := S9x150000x64) S1x30000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S9x64x64.size a
  hwx0_1 : ∀ i : grid0.Coords, EltTy.bits .bf16 = 32 ∨ (Rect.block (s := S9x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x30000x64.size a ≤ S9x150000x64.size a
  hwx0_2 : ∀ i : grid0.Coords, EltTy.bits .f32 = 32 ∨ (Rect.block (s := S9x150000x64) S1x30000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S200000x64.size a
  hwx1_0 : ∀ i : grid1.Coords, EltTy.bits .f32 = 32 ∨ (Rect.block (s := S200000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S200000x64.size a
  hwx1_2 : ∀ i : grid1.Coords, EltTy.bits .f32 = 32 ∨ (Rect.block (s := S200000x64) S20000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S200000x64.size a
  hwx2_0 : ∀ i : grid2.Coords, EltTy.bits .f32 = 32 ∨ (Rect.block (s := S200000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x64.size a ≤ S200000x64.size a
  hwx2_3 : ∀ i : grid2.Coords, EltTy.bits .f32 = 32 ∨ (Rect.block (s := S200000x64) S20000x64.size (cc2_transform_3 i) (hinb2_3 i)).WholeWords (EltTy.packing .f32)

variable [Facts₀]

def gather_S200000x64_S9x150000x1_S9x150000x64_2_0_n_n_0_2_164 : GatherDims S200000x64 S9x150000x1 S9x150000x64 where
  offsetDims := [2]
  collapsedSliceDims := [0]
  operandBatchingDims := []
  startIndicesBatchingDims := []
  startIndexMap := [0]
  indexVectorDim := 2
  sliceSizes := ![1, 64]
  wf := gather_S200000x64_S9x150000x1_S9x150000x64_2_0_n_n_0_2_164_wf
def dot_S30000x64_S64x64_S30000x64_1_0_0_1_n_n : DotDims S30000x64 S64x64 S30000x64 where
  lhsContracting := [1]
  rhsContracting := [0]
  lhsNonContracting := [0]
  rhsNonContracting := [1]
  lhsBatch := []
  rhsBatch := []
  wf := dot_S30000x64_S64x64_S30000x64_1_0_0_1_n_n_wf
def scatter_S200000x64_S1350000x1_S1350000x64_1_0_0_1 : ScatterDims S200000x64 S1350000x1 S1350000x64 where
  updateWindowDims := [1]
  insertedWindowDims := [0]
  scatterDimsToOperandDims := [0]
  indexVectorDim := 1
  wf := scatter_S200000x64_S1350000x1_S1350000x64_1_0_0_1_wf

abbrev win0_0 : Pipeline.Window sig grid0 :=
  Pipeline.Window.ofSpec (Memref.whole main_v8) S1x30000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x30000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S20000x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21_1) S1x64.size cc1_transform_3 reads1_3 true true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21_2) S1x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21_0) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S20000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S200000x3 : Shape := ⟨2, ![200000, 3]⟩
abbrev S200000x64 : Shape := ⟨2, ![200000, 64]⟩
abbrev S9x150000 : Shape := ⟨2, ![9, 150000]⟩
abbrev S9x64x64 : Shape := ⟨3, ![9, 64, 64]⟩
abbrev S64 : Shape := ⟨1, ![64]⟩
abbrev S_ : Shape := ⟨0, ![]⟩
abbrev S9x150000x1 : Shape := ⟨3, ![9, 150000, 1]⟩
abbrev S9x150000x64 : Shape := ⟨3, ![9, 150000, 64]⟩
abbrev S1350000 : Shape := ⟨1, ![1350000]⟩
abbrev S1350000x64 : Shape := ⟨2, ![1350000, 64]⟩
abbrev S1350000x1 : Shape := ⟨2, ![1350000, 1]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S200000x3, .i32⟩
  | .hbm, ⟨1, _⟩ => ⟨S200000x64, .f32⟩
  | .hbm, ⟨2, _⟩ => ⟨S9x150000, .i32⟩
  | .hbm, ⟨3, _⟩ => ⟨S9x150000, .i32⟩
  | .hbm, ⟨4, _⟩ => ⟨S9x64x64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .i32⟩
  | .hbm, ⟨9, _⟩ => ⟨S9x150000, .i32⟩
  | .hbm, ⟨10, _⟩ => ⟨S9x150000, .i1⟩
  | .hbm, ⟨11, _⟩ => ⟨S_, .i32⟩
  | .hbm, ⟨12, _⟩ => ⟨S9x150000, .i32⟩
  | .hbm, ⟨13, _⟩ => ⟨S9x150000, .i32⟩
  | .hbm, ⟨14, _⟩ => ⟨S9x150000, .i32⟩
  | .hbm, ⟨15, _⟩ => ⟨S9x150000x1, .i32⟩
  | .hbm, ⟨16, _⟩ => ⟨S9x150000x64, .f32⟩
  | .hbm, ⟨17, _⟩ => ⟨S9x150000x64, .f32⟩
  | .hbm, ⟨18, _⟩ => ⟨S_, .f32⟩
  | .hbm, ⟨19, _⟩ => ⟨S200000x64, .f32⟩
  | .hbm, ⟨20, _⟩ => ⟨S1350000, .i32⟩
  | .hbm, ⟨21, _⟩ => ⟨S1350000x64, .f32⟩
  | .hbm, ⟨22, _⟩ => ⟨S_, .i32⟩
  | .hbm, ⟨23, _⟩ => ⟨S1350000, .i32⟩
  | .hbm, ⟨24, _⟩ => ⟨S1350000, .i1⟩
  | .hbm, ⟨25, _⟩ => ⟨S_, .i32⟩
  | .hbm, ⟨26, _⟩ => ⟨S1350000, .i32⟩
  | .hbm, ⟨27, _⟩ => ⟨S1350000, .i32⟩
  | .hbm, ⟨28, _⟩ => ⟨S1350000, .i32⟩
  | .hbm, ⟨29, _⟩ => ⟨S1350000x1, .i32⟩
  | .hbm, ⟨30, _⟩ => ⟨S200000x64, .f32⟩
  | .hbm, ⟨31, _⟩ => ⟨S1x64, .f32⟩
  | .hbm, ⟨32, _⟩ => ⟨S200000x64, .f32⟩
  | .hbm, ⟨33, _⟩ => ⟨S200000x64, .f32⟩
  | .hbm, ⟨34, _⟩ => ⟨S_, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S1x64, .f32⟩
  | .hbm, ⟨40, _⟩ => ⟨S200000x64, .f32⟩
  | .hbm, ⟨41, _⟩ => ⟨S200000x64, .f32⟩
  | .hbm, ⟨42, _⟩ => ⟨S200000x64, .f32⟩
  | .hbm, ⟨43, _⟩ => ⟨S_, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S64, .f32⟩
  | .hbm, ⟨48, _⟩ => ⟨S1x64, .f32⟩
  | .hbm, ⟨49, _⟩ => ⟨S200000x64, .f32⟩
  | .hbm, ⟨50, _⟩ => ⟨S200000x64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64, .f32⟩
  | .hbm, ⟨55, _⟩ => ⟨S1x64, .f32⟩
  | .hbm, ⟨56, _⟩ => ⟨S200000x64, .f32⟩
  | .hbm, ⟨57, _⟩ => ⟨S200000x64, .f32⟩
  | .hbm, ⟨58, _⟩ => ⟨S1x64, .f32⟩
  | .hbm, ⟨59, _⟩ => ⟨S200000x64, .f32⟩
  | .hbm, ⟨60, _⟩ => ⟨S200000x64, .f32⟩
  | .hbm, ⟨61, _⟩ => ⟨S1x64, .f32⟩
  | .hbm, ⟨62, _⟩ => ⟨S200000x64, .f32⟩
  | .hbm, ⟨63, _⟩ => ⟨S200000x64, .f32⟩
  | .hbm, ⟨64, _⟩ => ⟨S_, .f32⟩
  | .hbm, ⟨65, _⟩ => ⟨S200000x64, .f32⟩
  | .hbm, ⟨66, _⟩ => ⟨S200000x64, .f32⟩
  | _, _ => ⟨S200000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  bcast_S_S9x150000 : S_.BroadcastsInDim S9x150000 (![] : Fin 0 → Fin S9x150000.rank)
  bcast_S9x150000_S9x150000x1_0_1 : S9x150000.BroadcastsInDim S9x150000x1 (![0, 1] : Fin 2 → Fin S9x150000x1.rank)
  bcast_S_S200000x64 : S_.BroadcastsInDim S200000x64 (![] : Fin 0 → Fin S200000x64.rank)
  shapeCasts_S9x150000_S1350000 : S9x150000.ShapeCasts S1350000
  shapeCasts_S9x150000x64_S1350000x64 : S9x150000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  reducesTo_S200000x64_S64_d0 : S200000x64.ReducesTo [0] S64
  h_S_ : 0 < S_.numel
  bcast_S_S64 : S_.BroadcastsInDim S64 (![] : Fin 0 → Fin S64.rank)
  gather_S200000x64_S9x150000x1_S9x150000x64_2_0_n_n_0_2_164_wf : GatherDims.WF S200000x64 S9x150000x1 S9x150000x64 [2] [0] [] [0] [] 2 ![1, 64]
  dot_S9x150000x64_S9x64x64_S9x150000x64_2_1_1_2_0_0_wf : DotDims.WF S9x150000x64 S9x64x64 S9x150000x64 [2] [1] [1] [2] [0] [0]
  scatter_S200000x64_S1350000x1_S1350000x64_1_0_0_1_wf : ScatterDims.WF S200000x64 S1350000x1 S1350000x64 [1] [0] [0] 1

variable [Facts₀]

def gather_S200000x64_S9x150000x1_S9x150000x64_2_0_n_n_0_2_164 : GatherDims S200000x64 S9x150000x1 S9x150000x64 where
  offsetDims := [2]
  collapsedSliceDims := [0]
  operandBatchingDims := []
  startIndicesBatchingDims := []
  startIndexMap := [0]
  indexVectorDim := 2
  sliceSizes := ![1, 64]
  wf := gather_S200000x64_S9x150000x1_S9x150000x64_2_0_n_n_0_2_164_wf
def dot_S9x150000x64_S9x64x64_S9x150000x64_2_1_1_2_0_0 : DotDims S9x150000x64 S9x64x64 S9x150000x64 where
  lhsContracting := [2]
  rhsContracting := [1]
  lhsNonContracting := [1]
  rhsNonContracting := [2]
  lhsBatch := [0]
  rhsBatch := [0]
  wf := dot_S9x150000x64_S9x64x64_S9x150000x64_2_1_1_2_0_0_wf
def scatter_S200000x64_S1350000x1_S1350000x64_1_0_0_1 : ScatterDims S200000x64 S1350000x1 S1350000x64 where
  updateWindowDims := [1]
  insertedWindowDims := [0]
  scatterDimsToOperandDims := [0]
  indexVectorDim := 1
  wf := scatter_S200000x64_S1350000x1_S1350000x64_1_0_0_1_wf

class Facts : Prop extends Facts₀ where

variable [Facts]
-- ==== Proof.Spec.lean ====
/-
  What both programs compute once the feature rows are gathered, written once over the extended reals.

  A sparse convolution adds, into every output row, the products of gathered feature rows with one 64 x 64 weight
  matrix per kernel offset: contrib is that product for every (offset, pair, channel). The rows are then added into
  the output table (a scatter-add the two programs spell identically, so it is left abstract here: S below is its
  result), a per-channel bias is added, and the table is normalised channel by channel with the statistics of its
  own 200000 rows and passed through max(., 0).

  The two programs differ in how they normalise. One takes the channel sums of X and of X * X, forms the mean and
  E[X^2] - mean^2, and applies X * scale + shift with scale = gamma * rsqrt(var + eps) and
  shift = beta - mean * scale (kOut). The other subtracts the mean first, averages the squared deviations, and
  applies (X - mean) * rsqrt(var + eps) * gamma + beta (rOut). On real numbers these agree.
-/
import Idealize.ShloMosaic.PureOps.Ideal
import Idealize.ShloMosaic.Lib.ValueIdx

noncomputable section

open scoped BigOperators

namespace Cert.Spec

open Idealize.ShloMosaic Idealize.ShloMosaic.ValueIdx

/-- The output table: 200000 rows of 64 channels. -/
abbrev STab : Shape := ⟨2, ![200000, 64]⟩
/-- One value per channel. -/
abbrev SCh : Shape := ⟨1, ![64]⟩
/-- Gathered rows and their products: 9 offsets, 150000 pairs, 64 channels. -/
abbrev SPairs : Shape := ⟨3, ![9, 150000, 64]⟩
/-- The weights: per offset a 64 x 64 matrix. -/
abbrev SWts : Shape := ⟨3, ![9, 64, 64]⟩

/-- An extended real that is a real number. -/
def IsReal (a : EReal) : Prop := ∃ x : ℝ, a = (x : EReal)

/-- Pair m of offset k, output channel o: the gathered row times column o of the offset's weight matrix. -/
def contrib (G : SPairs.Idx → EReal) (W : SWts.Idx → EReal) : SPairs.Idx → EReal :=
  fun i => ∑ k : Fin 64, G (ix3 (i 0) (i 1) k) * W (ix3 (i 0) k (i 2))

/-- One value per channel laid out as a 1 x 64 row. -/
abbrev SRow : Shape := ⟨2, ![1, 64]⟩

/-- A 1 x 64 row read as a vector over the channels. -/
def rowVec (v : SRow.Idx → EReal) : SCh.Idx → EReal := fun j => v (ix2 (0 : Fin 1) (j 0))

/-- The number of rows, 200000, as the programs spell it. -/
def nRows : EReal := Ideal.ofBits .f32 0x48435000#32
/-- The variance offset, the binary32 number nearest 1e-5, as the programs spell it. -/
def eps : EReal := Ideal.ofBits .f32 0x3727C5AC#32

/-- The table with the channel bias added to every row. -/
def biased (S : STab.Idx → EReal) (b : SCh.Idx → EReal) : STab.Idx → EReal :=
  fun i => S i + b (ix1 (i 1))

/-- The sum of a channel over all rows. -/
def colSum (X : STab.Idx → EReal) : SCh.Idx → EReal :=
  fun j => ∑ r : Fin 200000, X (ix2 r (j 0))

/-- The sum of a channel's squares over all rows. -/
def colSumSq (X : STab.Idx → EReal) : SCh.Idx → EReal :=
  fun j => ∑ r : Fin 200000, X (ix2 r (j 0)) * X (ix2 r (j 0))

/-! ## Normalising by scale and shift -/

def kMean (X : STab.Idx → EReal) : SCh.Idx → EReal :=
  fun j => Ideal.div (colSum X j) nRows

def kScale (X : STab.Idx → EReal) (g : SCh.Idx → EReal) : SCh.Idx → EReal :=
  fun j => g j * Ideal.rsqrt (Ideal.div (colSumSq X j) nRows - kMean X j * kMean X j + eps)

def kShift (X : STab.Idx → EReal) (g b : SCh.Idx → EReal) : SCh.Idx → EReal :=
  fun j => b j - kMean X j * kScale X g j

/-- Every row times a per-channel scale plus a per-channel shift, then max(., 0). -/
def affineRelu (X : STab.Idx → EReal) (sc sh : SCh.Idx → EReal) : STab.Idx → EReal :=
  fun i => max (X i * sc (ix1 (i 1)) + sh (ix1 (i 1))) 0

def kOut (X : STab.Idx → EReal) (g b : SCh.Idx → EReal) : STab.Idx → EReal :=
  affineRelu X (kScale X g) (kShift X g b)

/-! ## Normalising by centring first -/

def rMean (X : STab.Idx → EReal) : SCh.Idx → EReal :=
  fun j => Ideal.div (0 + colSum X j) nRows

def rVar (X : STab.Idx → EReal) : SCh.Idx → EReal :=
  fun j => Ideal.div (0 + ∑ r : Fin 200000, (X (ix2 r (j 0)) - rMean X j) * (X (ix2 r (j 0)) - rMean X j)) nRows

def rOut (X : STab.Idx → EReal) (g b : SCh.Idx → EReal) : STab.Idx → EReal :=
  fun i => max ((X i - rMean X (ix1 (i 1))) * Ideal.rsqrt (rVar X (ix1 (i 1)) + eps) * g (ix1 (i 1))
    + b (ix1 (i 1))) 0

end Cert.Spec

end
-- ==== Proof.Algebra.lean ====
/-
  The algebra on real numbers.

  The two float words of the programs denote 200000 and a positive real. Sums, products, gathered entries and
  scatter-added tables of real numbers are real numbers. For n real numbers the mean of the squares less the square
  of the mean is the mean of the squared deviations, a nonnegative number; adding a positive offset gives a positive
  number, whose reciprocal square root is a real number r; and x * (g r) + (b - mu (g r)) = (x - mu) r g + b.
-/
import proofs.«174729_j50354196578891_1_alg».proof.Proof.Spec
import Idealize.ShloMosaic.PureOps.Ideal
import Idealize.ShloMosaic.PureOps.Ideal.Laws
import Mathlib.Data.EReal.Operations

noncomputable section

open scoped BigOperators

namespace Cert.Spec

open Idealize.ShloMosaic Idealize.ShloMosaic.ValueIdx

/-- The row count the programs spell is the real number 200000. -/
theorem nRows_eq : nRows = ((200000 : ℝ) : EReal) := by
  unfold nRows
  simp [Ideal.ofBits, Ideal.ieee, -EReal.coe_mul]; norm_num

/-- The variance offset the programs spell is a positive real number. -/
theorem eps_pos : ∃ e : ℝ, 0 < e ∧ eps = (e : EReal) := by
  unfold eps
  simp [Ideal.ofBits, Ideal.ieee, -EReal.coe_mul]

theorem isReal_zero : IsReal 0 := ⟨0, rfl⟩

theorem isReal_add {a b : EReal} (ha : IsReal a) (hb : IsReal b) : IsReal (a + b) := by
  obtain ⟨x, rfl⟩ := ha
  obtain ⟨y, rfl⟩ := hb
  exact ⟨x + y, (EReal.coe_add x y).symm⟩

theorem isReal_mul {a b : EReal} (ha : IsReal a) (hb : IsReal b) : IsReal (a * b) := by
  obtain ⟨x, rfl⟩ := ha
  obtain ⟨y, rfl⟩ := hb
  exact ⟨x * y, (EReal.coe_mul x y).symm⟩

/-- The inclusion of the reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact isReal_add (hf a (Finset.mem_insert_self a s)) (ih fun i hi => hf i (Finset.mem_insert_of_mem hi))

/-- A product of gathered rows with weights that are real numbers is a real number. -/
theorem contrib_isReal (G : SPairs.Idx → EReal) (W : SWts.Idx → EReal) (hG : ∀ i, IsReal (G i)) (hW : ∀ i, IsReal (W i)) :
    ∀ i, IsReal (contrib G W i) := by
  intro i
  exact isReal_sum _ _ fun k _ => isReal_mul (hG _) (hW _)

/-- Adding real updates into a real table leaves real numbers: each entry is the table's entry plus a finite sum of
    updates. -/
theorem hostScatterAdd_isReal {s si su : Shape} (d : ScatterDims s si su) {w : ℕ} (x : s.Idx → EReal) (idx : IVec si w)
    (upd : su.Idx → EReal) (hx : ∀ i, IsReal (x i)) (hu : ∀ j, IsReal (upd j)) :
    ∀ i, IsReal (Ideal.hostScatterAdd d x idx upd i) := by
  intro i
  exact isReal_add (hx i) (isReal_sum _ _ fun j _ => hu j)

theorem biased_isReal (S : STab.Idx → EReal) (b : SCh.Idx → EReal) (hS : ∀ i, IsReal (S i)) (hb : ∀ j, IsReal (b j)) :
    ∀ i, IsReal (biased S b i) := by
  intro i
  exact isReal_add (hS i) (hb _)

/-- For n numbers, the mean of the squares less the square of the mean is the mean of the squared deviations. -/
theorem var_two_ways (n : ℕ) (hn : (n : ℝ) ≠ 0) (f : Fin n → ℝ) :
    (∑ r, f r * f r) * (1 / (n : ℝ)) - (∑ r, f r) * (1 / (n : ℝ)) * ((∑ r, f r) * (1 / (n : ℝ)))
      = (∑ r, (f r - (∑ r, f r) * (1 / (n : ℝ))) * (f r - (∑ r, f r) * (1 / (n : ℝ)))) * (1 / (n : ℝ)) := by
  set m : ℝ := (∑ r, f r) * (1 / (n : ℝ)) with hm
  have h1 : ∀ r, (f r - m) * (f r - m) = f r * f r - 2 * m * f r + m * m := fun r => by ring
  have h2 : (∑ r, (f r - m) * (f r - m)) = (∑ r, f r * f r) - 2 * m * (∑ r, f r) + (n : ℝ) * (m * m) := by
    simp only [h1, Finset.sum_add_distrib, Finset.sum_sub_distrib, ← Finset.mul_sum, Finset.sum_const,
      Finset.card_univ, Fintype.card_fin, nsmul_eq_mul]
    ring
  rw [h2, hm]
  field_simp
  ring

/-- The channel mean of a real table. -/
def mu (x : STab.Idx → ℝ) (j : SCh.Idx) : ℝ := (∑ r : Fin 200000, x (ix2 r (j 0))) * (1 / (200000 : ℝ))

/-- The channel variance of a real table: the mean of the squared deviations. -/
def vr (x : STab.Idx → ℝ) (j : SCh.Idx) : ℝ :=
  (∑ r : Fin 200000, (x (ix2 r (j 0)) - mu x j) * (x (ix2 r (j 0)) - mu x j)) * (1 / (200000 : ℝ))

theorem vr_nonneg (x : STab.Idx → ℝ) (j : SCh.Idx) : 0 ≤ vr x j :=
  mul_nonneg (Finset.sum_nonneg fun _ _ => mul_self_nonneg _) (by norm_num)

theorem colSum_coe (x : STab.Idx → ℝ) (j : SCh.Idx) :
    colSum (fun i => (x i : EReal)) j = ((∑ r : Fin 200000, x (ix2 r (j 0)) : ℝ) : EReal) := by
  rw [coe_sum]; rfl

theorem colSumSq_coe (x : STab.Idx → ℝ) (j : SCh.Idx) :
    colSumSq (fun i => (x i : EReal)) j
      = ((∑ r : Fin 200000, x (ix2 r (j 0)) * x (ix2 r (j 0)) : ℝ) : EReal) := by
  rw [coe_sum]
  simp only [colSumSq, EReal.coe_mul]

theorem kMean_coe (x : STab.Idx → ℝ) (j : SCh.Idx) : kMean (fun i => (x i : EReal)) j = (mu x j : EReal) := by
  rw [kMean, nRows_eq, Ideal.div_coe (by norm_num), colSum_coe, ← EReal.coe_mul]; rfl

theorem rMean_coe (x : STab.Idx → ℝ) (j : SCh.Idx) : rMean (fun i => (x i : EReal)) j = (mu x j : EReal) := by
  rw [rMean, zero_add, nRows_eq, Ideal.div_coe (by norm_num), colSum_coe, ← EReal.coe_mul]; rfl

theorem rVar_coe (x : STab.Idx → ℝ) (j : SCh.Idx) : rVar (fun i => (x i : EReal)) j = (vr x j : EReal) := by
  rw [rVar, zero_add, nRows_eq, Ideal.div_coe (by norm_num), rMean_coe]
  simp only [← EReal.coe_sub, ← EReal.coe_mul, ← coe_sum]
  rfl

theorem kVar_coe (x : STab.Idx → ℝ) (j : SCh.Idx) :
    Ideal.div (colSumSq (fun i => (x i : EReal)) j) nRows
        - kMean (fun i => (x i : EReal)) j * kMean (fun i => (x i : EReal)) j = (vr x j : EReal) := by
  rw [kMean_coe, nRows_eq, Ideal.div_coe (by norm_num), colSumSq_coe, ← EReal.coe_mul, ← EReal.coe_mul,
    ← EReal.coe_sub]
  congr 1
  have h := var_two_ways 200000 (by norm_num) (fun r => x (ix2 r (j 0)))
  simpa [mu, vr] using h

/-- At a real number that is not negative plus a positive real, the reciprocal square root is a real number. -/
theorem rsqrt_coe_pos {v e : ℝ} (hv : 0 ≤ v) (he : 0 < e) :
    Ideal.rsqrt ((v : EReal) + (e : EReal)) = (((Real.sqrt (v + e))⁻¹ : ℝ) : EReal) := by
  have h : 0 < v + e := by linarith
  rw [← EReal.coe_add, Ideal.rsqrt_coe, if_neg (not_lt.mpr h.le), if_neg h.ne']

/-- On a table of real numbers with real gamma and beta the two normalisations agree. -/
theorem kOut_eq_rOut (X : STab.Idx → EReal) (g b : SCh.Idx → EReal) (hX : ∀ i, IsReal (X i)) (hg : ∀ j, IsReal (g j))
    (hb : ∀ j, IsReal (b j)) : kOut X g b = rOut X g b := by
  choose x hx using hX
  choose g' hg' using hg
  choose b' hb' using hb
  obtain rfl : X = fun i => (x i : EReal) := funext hx
  obtain rfl : g = fun j => (g' j : EReal) := funext hg'
  obtain rfl : b = fun j => (b' j : EReal) := funext hb'
  obtain ⟨e, he, hee⟩ := eps_pos
  funext i
  simp only [kOut, rOut, affineRelu, kScale, kShift]
  rw [kVar_coe, kMean_coe, rMean_coe, rVar_coe, hee, rsqrt_coe_pos (vr_nonneg x _) he]
  simp only [← EReal.coe_sub, ← EReal.coe_mul, ← EReal.coe_add]
  congr 2
  ring

end Cert.Spec

end
-- ==== Proof.PreReal.lean ====
/-
  From the precondition to real numbers.

  The precondition is the conjunction, over the five float inputs, of "every entry has absolute value below
  positive infinity". On the extended reals an entry with that property is neither infinity, so it is a real number.
-/
import proofs.«174729_j50354196578891_1_alg».proof.Pre_finite_inputs
import proofs.«174729_j50354196578891_1_alg».proof.Proof.Gen.Pre_finite_inputs
import proofs.«174729_j50354196578891_1_alg».proof.Proof.Spec
import Idealize.ShloMosaic.Lib.ReduceAll
import Idealize.ShloMosaic.Lib.ValueIdx
import Idealize.ShloMosaic.PureOps.Ideal

noncomputable section

namespace Cert.PreReal

open Idealize.ShloMosaic Idealize.ShloMosaic.ValueIdx Cert.Pre_finite_inputs
open Cert.Spec (IsReal)

instance : Subsingleton S_.Idx := ⟨fun a b => funext fun d => d.elim0⟩

/-- The word of positive infinity denotes the top element. -/
theorem ofBits_inf : Ideal.ofBits .f32 0x7F800000#32 = ⊤ := by simp [Ideal.ofBits, Ideal.ieee]

/-- An extended real whose absolute value is below positive infinity is a real number. -/
theorem isReal_of_cmp (x : EReal) (h : Ideal.cmp .olt (max x (-x)) (Ideal.ofBits .f32 0x7F800000#32) = 1#1) : IsReal x := by
  rw [ofBits_inf] at h
  induction x using EReal.rec with
  | bot => simp [Ideal.cmp] at h
  | top => simp [Ideal.cmp] at h
  | coe r => exact ⟨r, rfl⟩

theorem finite_of_pre (a0 : IVec S200000x3 32) (a1 : FVec Ideal S200000x64 .f32) (a2 a3 : IVec S9x150000 32)
    (a4 : FVec Ideal S9x64x64 .f32) (a5 a6 a7 : FVec Ideal S64 .f32)
    (h : fn (F := Ideal) a0 a1 a2 a3 a4 a5 a6 a7 = fun _ => 1#1) :
    (∀ i, IsReal (a1 i)) ∧ (∀ i, IsReal (a4 i)) ∧ (∀ i, IsReal (a5 i)) ∧ (∀ i, IsReal (a6 i)) ∧ (∀ i, IsReal (a7 i)) := by
  have h0 := congrFun h ix0
  dsimp only [fn, fn_part1] at h0
  change IntOp.andi (IntOp.andi (IntOp.andi (IntOp.andi _ _) _) _) _ = 1#1 at h0
  rw [IntOp.andi_eq_one, IntOp.andi_eq_one, IntOp.andi_eq_one, IntOp.andi_eq_one] at h0
  obtain ⟨⟨⟨⟨h1, h4⟩, h5⟩, h6⟩, h7⟩ := h0
  refine ⟨fun i => ?_, fun i => ?_, fun i => ?_, fun i => ?_, fun i => ?_⟩
  · exact isReal_of_cmp _ (Host.reduce_andi_all _ _ _ _ _ h1 i)
  · exact isReal_of_cmp _ (Host.reduce_andi_all _ _ _ _ _ h4 i)
  · exact isReal_of_cmp _ (Host.reduce_andi_all _ _ _ _ _ h5 i)
  · exact isReal_of_cmp _ (Host.reduce_andi_all _ _ _ _ _ h6 i)
  · exact isReal_of_cmp _ (Host.reduce_andi_all _ _ _ _ _ h7 i)

end Cert.PreReal

end
-- ==== Proof.RefValue.lean ====
/-
  The reference read one operation at a time.

  Its batched product of the gathered rows with the weights is, entry by entry, a sum over the 64 input channels.
  After the scatter-add (left as it is printed) it adds the bias to every row, takes per channel the mean over the
  200000 rows (a sum started at zero, divided by the row count), the mean of the squared deviations from that mean,
  and applies (x - mean) * rsqrt(var + eps) * gamma + beta followed by max(., 0). Read at an index, every one of
  these operations is the operation of the specification on the entries at that index.
-/
import proofs.«174729_j50354196578891_1_alg».proof.Proof.Gen.ReferenceIdeal.Run
import proofs.«174729_j50354196578891_1_alg».proof.Proof.Gen.ReferenceIdeal.Read
import proofs.«174729_j50354196578891_1_alg».proof.Proof.Spec

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The reference's batched product of the gathered rows with the weights is, entry by entry, the sum over the
    64 input channels. -/
theorem ref_contrib (x1 : (⟨S200000x64, .f32⟩ : BufTy).Contents (Elt Ideal)) (x2 : (⟨S9x150000, .i32⟩ : BufTy).Contents (Elt Ideal))
    (x4 : (⟨S9x64x64, .f32⟩ : BufTy).Contents (Elt Ideal)) :
    val_main_v7 (F := Ideal) x1 x2 x4 = Cert.Spec.contrib (val_main_v6 (F := Ideal) x1 x2) x4 := by
  funext i
  -- the left factor is read at (offset, pair, k), the right one at (offset, k, channel)
  have hl : ∀ k : Fin 64, lidx_main_v7 i k = ix3 (n0 := 9) (n1 := 150000) (n2 := 64) (i 0) (i 1) k := fun k =>
    funext fun a => Fin.ext (by match a with | ⟨0, _⟩ => rfl | ⟨1, _⟩ => rfl | ⟨2, _⟩ => rfl)
  have hr : ∀ k : Fin 64, ridx_main_v7 i k = ix3 (n0 := 9) (n1 := 64) (n2 := 64) (i 0) k (i 2) := fun k =>
    funext fun a => Fin.ext (by match a with | ⟨0, _⟩ => rfl | ⟨1, _⟩ => rfl | ⟨2, _⟩ => rfl)
  rw [val_main_v7_apply]
  simp only [hl, hr, Cert.Spec.contrib]

/-- The table after the bias: the bias vector, laid out as a 1 x 64 row and repeated down the 200000 rows, is read
    at the entry's channel. -/
theorem ref_biased (x1 : (⟨S200000x64, .f32⟩ : BufTy).Contents (Elt Ideal)) (x2 x3 : (⟨S9x150000, .i32⟩ : BufTy).Contents (Elt Ideal))
    (x4 : (⟨S9x64x64, .f32⟩ : BufTy).Contents (Elt Ideal)) (x5 : (⟨S64, .f32⟩ : BufTy).Contents (Elt Ideal)) :
    val_main_v20 (F := Ideal) x1 x2 x3 x4 x5 = Cert.Spec.biased (val_main_v17 (F := Ideal) x1 x2 x3 x4) x5 := by
  funext i
  have h : idx_main_v18 (idx_main_v19 i) = ix1 (n := 64) (i 1) :=
    funext fun a => Fin.ext (by match a with | ⟨0, _⟩ => rfl)
  rw [val_main_v20_apply, val_main_v19_apply, val_main_v18_apply, h]
  rfl

/-- The channel means: zero plus the sum of the channel down the rows, divided by the number of rows. -/
theorem ref_mean (x1 : (⟨S200000x64, .f32⟩ : BufTy).Contents (Elt Ideal)) (x2 x3 : (⟨S9x150000, .i32⟩ : BufTy).Contents (Elt Ideal))
    (x4 : (⟨S9x64x64, .f32⟩ : BufTy).Contents (Elt Ideal)) (x5 : (⟨S64, .f32⟩ : BufTy).Contents (Elt Ideal)) :
    val_main_v23 (F := Ideal) x1 x2 x3 x4 x5 = Cert.Spec.rMean (val_main_v20 (F := Ideal) x1 x2 x3 x4 x5) := by
  funext j
  -- term k of the sum for channel j is the table's entry (k, j)
  have h : ∀ k : Fin 200000, idx_main_v21 j k = ix2 (n0 := 200000) (n1 := 64) k (j 0) := fun k =>
    funext fun a => Fin.ext (by match a with | ⟨0, _⟩ => rfl | ⟨1, _⟩ => rfl)
  rw [val_main_v23_apply, val_main_v21_apply, val_main_v22_apply, val_main_cst_4_apply, val_main_cst_3_apply]
  simp only [h, Cert.Spec.rMean, Cert.Spec.colSum, Cert.Spec.nRows, Ideal.hostDivf_def, Ideal.ofBits_def,
    Ideal.ofBits_zero_f32]

/-- The channel variances: zero plus the sum down the rows of the squared deviations from the channel mean, divided
    by the number of rows. -/
theorem ref_var (x1 : (⟨S200000x64, .f32⟩ : BufTy).Contents (Elt Ideal)) (x2 x3 : (⟨S9x150000, .i32⟩ : BufTy).Contents (Elt Ideal))
    (x4 : (⟨S9x64x64, .f32⟩ : BufTy).Contents (Elt Ideal)) (x5 : (⟨S64, .f32⟩ : BufTy).Contents (Elt Ideal)) :
    val_main_v30 (F := Ideal) x1 x2 x3 x4 x5 = Cert.Spec.rVar (val_main_v20 (F := Ideal) x1 x2 x3 x4 x5) := by
  funext j
  -- term k of the sum for channel j is taken at the table's entry (k, j)
  have h : ∀ k : Fin 200000, idx_main_v28 j k = ix2 (n0 := 200000) (n1 := 64) k (j 0) := fun k =>
    funext fun a => Fin.ext (by match a with | ⟨0, _⟩ => rfl | ⟨1, _⟩ => rfl)
  -- the mean, laid out as a row and repeated down the rows, is read back at the channel j
  have hm : ∀ k : Fin 200000, idx_main_v24 (idx_main_v25 (ix2 (n0 := 200000) (n1 := 64) k (j 0))) = j := fun k =>
    funext fun a => Fin.ext (by match a with | ⟨0, _⟩ => rfl)
  -- so term k is the square of entry (k, j) minus the mean of channel j
  have hs : ∀ k : Fin 200000, val_main_v27 (F := Ideal) x1 x2 x3 x4 x5 (idx_main_v28 j k)
      = (val_main_v20 (F := Ideal) x1 x2 x3 x4 x5 (ix2 k (j 0))
          - Cert.Spec.rMean (val_main_v20 (F := Ideal) x1 x2 x3 x4 x5) j)
        * (val_main_v20 (F := Ideal) x1 x2 x3 x4 x5 (ix2 k (j 0))
          - Cert.Spec.rMean (val_main_v20 (F := Ideal) x1 x2 x3 x4 x5) j) := fun k => by
    rw [h k, val_main_v27_apply, val_main_v26_apply, val_main_v25_apply, val_main_v24_apply, hm k, ref_mean]
    rfl
  rw [val_main_v30_apply, val_main_v28_apply, val_main_v29_apply, val_main_cst_6_apply, val_main_cst_5_apply,
    Finset.sum_congr rfl (fun k _ => hs k)]
  simp only [Cert.Spec.rVar, Cert.Spec.nRows, Ideal.hostDivf_def, Ideal.ofBits_def, Ideal.ofBits_zero_f32]

/-- The reference's result is the centred normalisation of the biased table, cut below at zero. -/
theorem ref_out (x1 : (⟨S200000x64, .f32⟩ : BufTy).Contents (Elt Ideal)) (x2 x3 : (⟨S9x150000, .i32⟩ : BufTy).Contents (Elt Ideal))
    (x4 : (⟨S9x64x64, .f32⟩ : BufTy).Contents (Elt Ideal)) (x5 x6 x7 : (⟨S64, .f32⟩ : BufTy).Contents (Elt Ideal)) :
    val_main_v47 (F := Ideal) x1 x2 x3 x4 x5 x6 x7
      = Cert.Spec.rOut (Cert.Spec.biased (val_main_v17 (F := Ideal) x1 x2 x3 x4) x5) x6 x7 := by
  rw [← ref_biased]
  funext i
  -- each per-channel vector (mean, reciprocal root, gamma, beta) is laid out as a 1 x 64 row, repeated down the
  -- rows, and so read at the entry's channel
  have h31 : idx_main_v31 (idx_main_v32 i) = ix1 (n := 64) (i 1) :=
    funext fun a => Fin.ext (by match a with | ⟨0, _⟩ => rfl)
  have h37 : idx_main_v37 (idx_main_v38 i) = ix1 (n := 64) (i 1) :=
    funext fun a => Fin.ext (by match a with | ⟨0, _⟩ => rfl)
  have h40 : idx_main_v40 (idx_main_v41 i) = ix1 (n := 64) (i 1) :=
    funext fun a => Fin.ext (by match a with | ⟨0, _⟩ => rfl)
  have h43 : idx_main_v43 (idx_main_v44 i) = ix1 (n := 64) (i 1) :=
    funext fun a => Fin.ext (by match a with | ⟨0, _⟩ => rfl)
  rw [val_main_v47_apply, val_main_v45_apply, val_main_v42_apply, val_main_v39_apply, val_main_v33_apply,
    val_main_v32_apply, val_main_v31_apply, h31, val_main_v38_apply, val_main_v37_apply, h37, val_main_v36_apply,
    val_main_v35_apply, val_main_v34_apply, val_main_cst_7_apply, val_main_v41_apply, val_main_v40_apply, h40,
    val_main_v44_apply, val_main_v43_apply, h43, val_main_v46_apply, val_main_cst_8_apply, ref_mean, ref_var]
  simp only [Cert.Spec.rOut, Cert.Spec.eps, Ideal.maximumf_def, Ideal.addf_def, Ideal.mulf_def, Ideal.subf_def,
    Ideal.hostUnary_rsqrt_def, Ideal.ofBits_def, Ideal.ofBits_zero_f32]

end Cert.ReferenceIdeal.RefValue

end
-- ==== Proof.TableReal.lean ====
/-
  With real feature rows and real weights every entry of the table after the scatter-add is a real number: a gathered
  entry is an entry of the feature table, a product entry is a finite sum of products, and a table entry is zero
  plus a finite sum of product entries.
-/
import proofs.«174729_j50354196578891_1_alg».proof.Proof.Gen.ReferenceIdeal.Read
import proofs.«174729_j50354196578891_1_alg».proof.Proof.Spec
import proofs.«174729_j50354196578891_1_alg».proof.Proof.Algebra
import proofs.«174729_j50354196578891_1_alg».proof.Proof.RefValue
import Idealize.ShloMosaic.PureOps.Ideal.Laws

set_option maxHeartbeats 100000

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read
open Cert.Spec (IsReal)

theorem gathered_isReal (x1 : (⟨S200000x64, .f32⟩ : BufTy).Contents (Elt Ideal)) (x2 : (⟨S9x150000, .i32⟩ : BufTy).Contents (Elt Ideal))
    (h1 : ∀ i, IsReal (x1 i)) : ∀ i, IsReal (val_main_v6 (F := Ideal) x1 x2 i) := by
  intro i
  unfold val_main_v6 Host.gather
  exact h1 _

/-- Adding real updates into a real table, for any dimension numbers. -/
theorem scatterAdd_isReal {s si su : Shape} {w : ℕ} (d : ScatterDims s si su) (x : FVec Ideal s .f32) (idx : IVec si w)
    (upd : FVec Ideal su .f32) (hx : ∀ i, IsReal (x i)) (hu : ∀ j, IsReal (upd j)) :
    ∀ i, IsReal (Host.scatterAdd (F := Ideal) d x idx upd i) :=
  Cert.Spec.hostScatterAdd_isReal d x idx upd hx hu

theorem zeros_isReal (i : S200000x64.Idx) : IsReal (val_main_v8 (F := Ideal) i) := by
  rw [val_main_v8_apply, val_main_cst_apply, Ideal.ofBits_def, Ideal.ofBits_zero_f32]
  exact Cert.Spec.isReal_zero

theorem updates_isReal (x1 : (⟨S200000x64, .f32⟩ : BufTy).Contents (Elt Ideal)) (x2 : (⟨S9x150000, .i32⟩ : BufTy).Contents (Elt Ideal))
    (x4 : (⟨S9x64x64, .f32⟩ : BufTy).Contents (Elt Ideal)) (h1 : ∀ i, IsReal (x1 i)) (h4 : ∀ i, IsReal (x4 i)) :
    ∀ j, IsReal (val_main_v10 (F := Ideal) x1 x2 x4 j) := by
  intro j
  rw [val_main_v10_apply, ref_contrib]
  exact Cert.Spec.contrib_isReal _ _ (gathered_isReal x1 x2 h1) h4 _

theorem table_isReal (x1 : (⟨S200000x64, .f32⟩ : BufTy).Contents (Elt Ideal)) (x2 x3 : (⟨S9x150000, .i32⟩ : BufTy).Contents (Elt Ideal))
    (x4 : (⟨S9x64x64, .f32⟩ : BufTy).Contents (Elt Ideal)) (h1 : ∀ i, IsReal (x1 i)) (h4 : ∀ i, IsReal (x4 i)) :
    ∀ i, IsReal (val_main_v17 (F := Ideal) x1 x2 x3 x4 i) :=
  scatterAdd_isReal scatter_S200000x64_S1350000x1_S1350000x64_1_0_0_1 (val_main_v8 (F := Ideal)) (val_main_v16 (F := Ideal) x3)
    (val_main_v10 (F := Ideal) x1 x2 x4) zeros_isReal (updates_isReal x1 x2 x4 h1 h4)

end Cert.ReferenceIdeal.RefValue

end
-- ==== Proof.Region0.lean ====
/-
  The first kernel region: block products on the matrix unit.

  The grid has 9 x 5 points. Point (k, b) takes rows 30000 b to 30000 b + 29999 of offset k's gathered rows and offset
  k's 64 x 64 weight matrix, multiplies them into a zero accumulator, and writes the 30000 x 64 block back at the
  same place of the result. Entry (k, m, o) of a block is the sum over the 64 input channels i of
  gathered (k, m, i) * weight (k, i, o); the blocks tile the result, so the whole array is that function of the two
  arrays the region was entered with.
-/
import proofs.«174729_j50354196578891_1_alg».proof.Proof.Gen.KernelIdeal.Frame
import proofs.«174729_j50354196578891_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val0

open Idealize.ShloMosaic Idealize.ShloMosaic.TcCoe Idealize.SL.Sem Idealize.ShloMosaic.ValueIdx
open Cert.KernelIdeal Cert.KernelIdeal.Gen
open Cert.Spec (rowVec)

variable (V : (c : Dev nD) → (b : Ref sig .tc) → Buf (Elt Ideal) ((c : Thread nD τ).loc b))

/-! ## The block product at an index -/

/-- The row axis of the left factor follows the result's row. -/
theorem lhs_row (j : S30000x64.Idx) (q : dot_S30000x64_S64x64_S30000x64_1_0_0_1_n_n.contr.Idx) :
    (dot_S30000x64_S64x64_S30000x64_1_0_0_1_n_n.lhsIdx j q 0).val = (j 0).val := by
  unfold DotDims.lhsIdx
  rw [dif_neg (show ¬(0 : Fin S30000x64.rank) ∈ dot_S30000x64_S64x64_S30000x64_1_0_0_1_n_n.lhsBatch by decide), dif_pos (show (0 : Fin S30000x64.rank) ∈ dot_S30000x64_S64x64_S30000x64_1_0_0_1_n_n.lhsNonContracting by decide)]
  rfl
/-- The channel axis of the left factor is the summation index. -/
theorem lhs_chan (j : S30000x64.Idx) (q : dot_S30000x64_S64x64_S30000x64_1_0_0_1_n_n.contr.Idx) :
    (dot_S30000x64_S64x64_S30000x64_1_0_0_1_n_n.lhsIdx j q 1).val = (q ⟨0, by decide⟩).val :=
  dot_S30000x64_S64x64_S30000x64_1_0_0_1_n_n.lhsIdx_val_of_single rfl j q
/-- The row axis of the right factor is the summation index. -/
theorem rhs_row (j : S30000x64.Idx) (q : dot_S30000x64_S64x64_S30000x64_1_0_0_1_n_n.contr.Idx) :
    (dot_S30000x64_S64x64_S30000x64_1_0_0_1_n_n.rhsIdx j q 0).val = (q ⟨0, by decide⟩).val :=
  dot_S30000x64_S64x64_S30000x64_1_0_0_1_n_n.rhsIdx_val_of_single rfl j q
/-- The column axis of the right factor follows the result's column. -/
theorem rhs_col (j : S30000x64.Idx) (q : dot_S30000x64_S64x64_S30000x64_1_0_0_1_n_n.contr.Idx) :
    (dot_S30000x64_S64x64_S30000x64_1_0_0_1_n_n.rhsIdx j q 1).val = (j 1).val := by
  unfold DotDims.rhsIdx
  rw [dif_neg (show ¬(1 : Fin S64x64.rank) ∈ dot_S30000x64_S64x64_S30000x64_1_0_0_1_n_n.rhsBatch by decide), dif_pos (show (1 : Fin S64x64.rank) ∈ dot_S30000x64_S64x64_S30000x64_1_0_0_1_n_n.rhsNonContracting by decide)]
  rfl

/-- The product of a 30000 x 64 matrix with a 64 x 64 matrix into a zero accumulator, entry (p, q): the sum over the
    64 inner positions. -/
theorem prod_apply (a : FVec Ideal S30000x64 .bf16) (b : FVec Ideal S64x64 .bf16) (p : Fin 30000) (q : Fin 64) :
    FloatOps.matmul dot_S30000x64_S64x64_S30000x64_1_0_0_1_n_n none a b (constant (F := Ideal) S30000x64 .f32 0x00000000#32) (ix2 p q)
      = ∑ k : Fin 64, a (ix2 p k) * b (ix2 k q) := by
  rw [Ideal.matmul_constant_zero_apply, ← Equiv.sum_comp (ValueIdx.contrEquiv1 dot_S30000x64_S64x64_S30000x64_1_0_0_1_n_n 64 rfl rfl).symm]
  refine Finset.sum_congr rfl fun k _ => ?_
  have hk := ValueIdx.contrEquiv1_symm_val dot_S30000x64_S64x64_S30000x64_1_0_0_1_n_n 64 rfl rfl k
  have el : dot_S30000x64_S64x64_S30000x64_1_0_0_1_n_n.lhsIdx (ix2 p q) ((ValueIdx.contrEquiv1 dot_S30000x64_S64x64_S30000x64_1_0_0_1_n_n 64 rfl rfl).symm k) = ix2 p k := funext fun a => Fin.ext (by
    match a with
    | ⟨0, _⟩ => exact lhs_row _ _
    | ⟨1, _⟩ => exact (lhs_chan _ _).trans hk)
  have er : dot_S30000x64_S64x64_S30000x64_1_0_0_1_n_n.rhsIdx (ix2 p q) ((ValueIdx.contrEquiv1 dot_S30000x64_S64x64_S30000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-- What the body stores, at pair p and channel q of its block: the sum over the 64 input channels of the loaded
    row times the loaded weight column. -/
theorem pay_apply (x0 : Vec Ideal S1x30000x64 .bf16) (x1 : Vec Ideal S1x64x64 .bf16) (u : Fin 1) (p : Fin 30000) (q : Fin 64) :
    k0_pay1 (F := Ideal) x0 x1 (ix3 u p q) = ∑ k : Fin 64, x0 (ix3 (0 : Fin 1) p k) * x1 (ix3 (0 : Fin 1) k q) := by
  unfold k0_pay1
  refine (shapeCast_ab_1ab_apply _ _ u p q).trans ?_
  refine (prod_apply _ _ p q).trans ?_
  refine Finset.sum_congr rfl fun k _ => ?_
  exact congrArg₂ (· * ·) (shapeCast_1ab_ab_apply x0 _ p k) (shapeCast_1ab_ab_apply x1 _ k q)

/-! ## One grid point's block -/

theorem hz3 : (![0, 0, 0] : Fin 3 → Nat) = fun _ => 0 := funext fun a => by fin_cases a <;> rfl

/-- The block index maps, decided over the 45 grid points: the gathered rows' block moves with the output's on the
    offset and pair axes, the weights' block follows the offset, and every other block index is zero. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 8 ∧ win0_2.index t (1 : Fin 3) ≤ 4 :=
  (by decide +kernel : ∀ t : Fin grid0.N, _)

/-- Every (offset, pair block) is some grid point's. -/
theorem idx_onto : ∀ (q0 : Fin 9) (q1 : Fin 5), ∃ t : Fin cfg0.N, win0_2.index t = ![q0.val, q1.val, 0] :=
  (by decide +kernel : ∀ (q0 : Fin 9) (q1 : Fin 5), ∃ t : Fin grid0.N, win0_2.index t = ![q0.val, q1.val, 0])

/-- A block product whose loaded rows are rows r0 .. r0 + 29999 of offset k's gathered rows and whose loaded matrix
    is offset k's weights is, entry by entry, the sum the specification names. -/
theorem block_apply (G : S9x150000x64.Idx → EReal) (W : S9x64x64.Idx → EReal)
    (x0 : Vec Ideal S1x30000x64 .bf16) (x1 : Vec Ideal S1x64x64 .bf16) (i : S9x150000x64.Idx)
    (u : Fin 1) (p : Fin 30000) (q : Fin 64)
    (h0 : ∀ a : Fin 64, x0 (ix3 (0 : Fin 1) p a) = G (ix3 (i 0) (i 1) a))
    (h1 : ∀ a : Fin 64, x1 (ix3 (0 : Fin 1) a q) = W (ix3 (i 0) a (i 2))) :
    k0_pay1 (F := Ideal) x0 x1 (ix3 u p q) = Cert.Spec.contrib G W i := by
  rw [pay_apply]
  unfold Cert.Spec.contrib
  refine Finset.sum_congr rfl fun a _ => ?_
  rw [h0, h1]

/-- What grid point t writes back is block t of the specification's array. -/
theorem flushed_eq (c : Dev nD) (t : Fin cfg0.N) :
    (dat0 (F := Ideal) V c).flushed 2 t
      = ((cfg0.win 2).blk t).view.read (Elt Ideal) (Cert.Spec.contrib (V c main_v8 : S9x150000x64.Idx → EReal) (V c main_v1 : S9x64x64.Idx → EReal)) := by
  show (cfg0.win 2).cut (grid0.coords t) ((dat0 (F := Ideal) V c).after 2 t) = _
  rw [after0_2]
  unfold out0_2
  rw [View.canon_unit_zero hz3]
  simp only [View.ld_unit_zero (S := S1x30000x64) hz3, View.ld_unit_zero (S := S1x64x64) hz3]
  obtain ⟨e0, e1, e2, e3, e4, e5, e6, e7, e8⟩ := idx_facts t
  funext j
  have hj0 : (j 0).val < 1 := (j 0).isLt
  have hj : j = ix3 (j 0) (j 1) (j 2) := eq_ix3 j
  show k0_pay1 (F := Ideal) (iblk0 V c 0 t) (iblk0 V c 1 t) j
    = Cert.Spec.contrib (V c main_v8 : S9x150000x64.Idx → EReal) (V c main_v1 : S9x64x64.Idx → EReal) (((cfg0.win 2).blk t).view.emb j)
  refine (congrArg (k0_pay1 (F := Ideal) (iblk0 V c 0 t) (iblk0 V c 1 t)) hj).trans ?_
  refine block_apply (V c main_v8) (V c main_v1) (iblk0 V c 0 t) (iblk0 V c 1 t) (((cfg0.win 2).blk t).view.emb j) (j 0) (j 1) (j 2) (fun a => ?_) (fun a => ?_)
  · show V c main_v8 (((cfg0.win 0).blk t).view.emb (ix3 (0 : Fin 1) (j 1) a)) = V c main_v8 _
    refine congrArg (V c main_v8) (funext fun d => Fin.ext ?_)
    match d with
    | ⟨0, _⟩ => show win0_0.index t (0 : Fin 3) * 1 + 1 * 0 = win0_2.index t (0 : Fin 3) * 1 + 1 * (j 0).val; omega
    | ⟨1, _⟩ => show win0_0.index t (1 : Fin 3) * 30000 + 1 * (j 1).val = win0_2.index t (1 : Fin 3) * 30000 + 1 * (j 1).val; omega
    | ⟨2, _⟩ => show win0_0.index t (2 : Fin 3) * 64 + 1 * a.val = a.val; omega
  · show V c main_v1 (((cfg0.win 1).blk t).view.emb (ix3 (0 : Fin 1) a (j 2))) = V c main_v1 _
    refine congrArg (V c main_v1) (funext fun d => Fin.ext ?_)
    match d with
    | ⟨0, _⟩ => show win0_1.index t (0 : Fin 3) * 1 + 1 * 0 = win0_2.index t (0 : Fin 3) * 1 + 1 * (j 0).val; omega
    | ⟨1, _⟩ => show win0_1.index t (1 : Fin 3) * 64 + 1 * a.val = a.val; omega
    | ⟨2, _⟩ => show win0_1.index t (2 : Fin 3) * 64 + 1 * (j 2).val = win0_2.index t (2 : Fin 3) * 64 + 1 * (j 2).val; omega

/-! ## From the blocks to the array -/

/-- An index of the array lies in grid point t's block iff each coordinate lies in the block's range on its axis. -/
theorem mem_blk (t : Fin cfg0.N) (i : S9x150000x64.Idx) :
    i ∈ ((cfg0.win 2).blk t).view.set ↔ ∀ a : Fin 3, win0_2.index t a * S1x30000x64.size a ≤ (i a).val ∧ (i a).val < win0_2.index t a * S1x30000x64.size a + S1x30000x64.size a := by
  show i ∈ ((View.whole main_v9).slice (win0_2.rect t)).set ↔ _
  rw [View.set_slice_whole, Rect.mem_set_unit]
  exact Iff.rfl

/-- Every index of the array lies in the block of the grid point (its offset, its pair divided by 30000), and that
    point writes its block back. -/
theorem cover (i : S9x150000x64.Idx) :
    ∃ t : Fin cfg0.N, (cfg0.win 2).flush t = true ∧ i ∈ ((cfg0.win 2).blk t).view.set := by
  have hi0 : (i 0).val < 9 := (i 0).isLt
  have hi1 : (i 1).val < 150000 := (i 1).isLt
  have hi2 : (i 2).val < 64 := (i 2).isLt
  obtain ⟨t, ht⟩ := idx_onto ⟨(i 0).val, hi0⟩ ⟨(i 1).val / 30000, by omega⟩
  have q0 : win0_2.index t (0 : Fin 3) = (i 0).val := congrFun ht 0
  have q1 : win0_2.index t (1 : Fin 3) = (i 1).val / 30000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 30000 ≤ (i 1).val ∧ (i 1).val < win0_2.index t (1 : Fin 3) * 30000 + 30000; omega
  | ⟨2, _⟩ => show win0_2.index t (2 : Fin 3) * 64 ≤ (i 2).val ∧ (i 2).val < win0_2.index t (2 : Fin 3) * 64 + 64; omega

/-- After the nine-by-five grid of block products, pair m of offset k holds in channel o the sum over the 64 input
    channels of the gathered row times the offset's weight column. -/
theorem arr0 (c : Dev nD) :
    (dat0 (F := Ideal) V c).arrAt 2 cfg0.N
      = Cert.Spec.contrib (V c main_v8 : S9x150000x64.Idx → EReal) (V c main_v1 : S9x64x64.Idx → EReal) :=
  (dat0 (F := Ideal) V c).arrAt_eq_of_cover 2 _ (fun t _ => flushed_eq V c t) cover

end Cert.KernelIdeal.Val0

end
-- ==== Proof.Region1.lean ====
/-
  The second kernel region: the bias and the column statistics.

  Ten grid points; point t handles rows 20000 t to 20000 t + 19999 of the table. It writes the block plus the bias
  row back at the same place, and adds the block's column sums, and the column sums of its squares, to two 1 x 64
  accumulators that stay where they are from point to point; point 0 first sets both to zero. By induction on the
  point, after point t the accumulators hold the sums over the rows below 20000 (t + 1), so after the last point
  they hold the sums over all 200000 rows. Sums of extended reals regroup freely, so ten block sums are one sum.
-/
import proofs.«174729_j50354196578891_1_alg».proof.Proof.Gen.KernelIdeal.Frame
import proofs.«174729_j50354196578891_1_alg».proof.Proof.Spec
import Idealize.ShloMosaic.Lib.ValueIdx
import Idealize.ShloMosaic.Lib.Pipeline.Value
import Idealize.ShloMosaic.PureOps.Ideal.Laws

noncomputable section

namespace Cert.KernelIdeal.Val1

open Idealize.ShloMosaic Idealize.ShloMosaic.TcCoe Idealize.SL.Sem Idealize.ShloMosaic.ValueIdx
open Cert.KernelIdeal Cert.KernelIdeal.Gen
open Cert.Spec (rowVec)

variable (V : (c : Dev nD) → (b : Ref sig .tc) → Buf (Elt Ideal) ((c : Thread nD τ).loc b))

/-!
  Region 1: the bias and column statistics pass over the 200000 x 64 table, in ten blocks of 20000 rows.

  At every block the pass writes the block plus the bias row to the biased table, and adds to two 1 x 64
  accumulators the block's column sums and the column sums of its squares; at the first block the accumulators are
  first set to zero. So after block n the accumulators hold the sums over the rows below 20000 (n + 1), by induction
  on n, and after the last block the sums over all rows: a sum over 200000 rows is the sum over the ten blocks of the
  sums over each block's rows. Over the extended reals addition is commutative and associative, so no finiteness is
  needed.
-/

section Pieces
variable {F : FTy → Type} [FloatOps F]

theorem hz2 : (![0, 0] : Fin 2 → Nat) = fun _ => 0 := funext fun a => by fin_cases a <;> rfl

/-- At the first point the block written to the biased table is the entry block plus the bias row. -/
theorem outA2 (c : Dev nD) (i : grid1.Coords) (a1 : Memref sig .tc .vmem S20000x64 .f32) (h1 : a1.IsWhole)
    (a2 : Memref sig .tc .vmem S1x64 .f32) (h2 : a2.IsWhole) (a3 : Memref sig .tc .vmem S20000x64 .f32) (h3 : a3.IsWhole)
    (a4 : Memref sig .tc .vmem S1x64 .f32) (h4 : a4.IsWhole) (a5 : Memref sig .tc .vmem S1x64 .f32) (h5 : a5.IsWhole)
    (hc : cond1_0 i) (x0 : Vec F S20000x64 .f32) (x1 : Vec F S1x64 .f32) :
    out1_A_2 c i a1 h1 a2 h2 a3 h3 a4 h4 a5 h5 hc x0 x1 = k1_pay3 x0 x1 := by
  unfold out1_A_2
  rw [View.read_writes_eq_canon _ _ _ (cover1_A_2 c i a1 h1 a2 h2 a3 h3 a4 h4 a5 h5 hc x0 x1)]
  unfold kernelRun1_A
  dsimp only
  sl_unfold_words
  rw [View.canon_unit_zero hz2]
  simp only [View.readAt_eq_ld, h1.read_unread, h2.read_unread, h4.read_unread, h5.read_unread, View.ld_unit_zero (S := S20000x64) hz2, View.ld_unit_zero (S := S1x64) hz2]

/-- At the first point the first accumulator is reset to zero, read back, and the block's column sums are added. -/
theorem outA3 (c : Dev nD) (i : grid1.Coords) (a1 : Memref sig .tc .vmem S20000x64 .f32) (h1 : a1.IsWhole)
    (a2 : Memref sig .tc .vmem S1x64 .f32) (h2 : a2.IsWhole) (a3 : Memref sig .tc .vmem S20000x64 .f32) (h3 : a3.IsWhole)
    (a4 : Memref sig .tc .vmem S1x64 .f32) (h4 : a4.IsWhole) (a5 : Memref sig .tc .vmem S1x64 .f32) (h5 : a5.IsWhole)
    (hc : cond1_0 i) (x0 : Vec F S20000x64 .f32) (x1 : Vec F S1x64 .f32) :
    out1_A_3 c i a1 h1 a2 h2 a3 h3 a4 h4 a5 h5 hc x0 x1 = k1_pay4 x0 x1 (k1_pay1 (F := F)) := by
  unfold out1_A_3
  rw [View.read_writes_eq_canon _ _ _ (cover1_A_3 c i a1 h1 a2 h2 a3 h3 a4 h4 a5 h5 hc x0 x1)]
  unfold kernelRun1_A
  dsimp only
  sl_unfold_words
  rw [View.canon_cons_unit_zero (S := S1x64) hz2, View.readCov_unit_zero (S := S1x64) _ hz2]
  simp only [View.readAt_eq_ld, h1.read_unread, h2.read_unread, h4.read_unread, h5.read_unread, View.ld_unit_zero (S := S20000x64) hz2, View.ld_unit_zero (S := S1x64) hz2]

/-- At the first point the second accumulator is reset to zero, read back, and the block's column sums of squares are added. -/
theorem outA4 (c : Dev nD) (i : grid1.Coords) (a1 : Memref sig .tc .vmem S20000x64 .f32) (h1 : a1.IsWhole)
    (a2 : Memref sig .tc .vmem S1x64 .f32) (h2 : a2.IsWhole) (a3 : Memref sig .tc .vmem S20000x64 .f32) (h3 : a3.IsWhole)
    (a4 : Memref sig .tc .vmem S1x64 .f32) (h4 : a4.IsWhole) (a5 : Memref sig .tc .vmem S1x64 .f32) (h5 : a5.IsWhole)
    (hc : cond1_0 i) (x0 : Vec F S20000x64 .f32) (x1 : Vec F S1x64 .f32) :
    out1_A_4 c i a1 h1 a2 h2 a3 h3 a4 h4 a5 h5 hc x0 x1 = k1_pay5 x0 x1 (k1_pay2 (F := F)) := by
  unfold out1_A_4
  rw [View.read_writes_eq_canon _ _ _ (cover1_A_4 c i a1 h1 a2 h2 a3 h3 a4 h4 a5 h5 hc x0 x1)]
  unfold kernelRun1_A
  dsimp only
  sl_unfold_words
  rw [View.canon_cons_unit_zero (S := S1x64) hz2, View.readCov_unit_zero (S := S1x64) _ hz2]
  simp only [View.readAt_eq_ld, h1.read_unread, h2.read_unread, h4.read_unread, h5.read_unread, View.ld_unit_zero (S := S20000x64) hz2, View.ld_unit_zero (S := S1x64) hz2]

/-- At a later point the block written to the biased table is again the entry block plus the bias row. -/
theorem outB2 (c : Dev nD) (i : grid1.Coords) (a1 : Memref sig .tc .vmem S20000x64 .f32) (h1 : a1.IsWhole)
    (a2 : Memref sig .tc .vmem S1x64 .f32) (h2 : a2.IsWhole) (a3 : Memref sig .tc .vmem S20000x64 .f32) (h3 : a3.IsWhole)
    (a4 : Memref sig .tc .vmem S1x64 .f32) (h4 : a4.IsWhole) (a5 : Memref sig .tc .vmem S1x64 .f32) (h5 : a5.IsWhole)
    (hc : ¬cond1_0 i) (x0 : Vec F S20000x64 .f32) (x1 : Vec F S1x64 .f32) (xo3 xo4 : Vec F S1x64 .f32) :
    out1_B_2 c i a1 h1 a2 h2 a3 h3 a4 h4 a5 h5 hc x0 x1 xo3 xo4 = k1_pay3 x0 x1 := by
  unfold out1_B_2
  rw [View.read_writes_eq_canon _ _ _ (cover1_B_2 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, h5.read_unread, View.ld_unit_zero (S := S20000x64) hz2, View.ld_unit_zero (S := S1x64) hz2]

/-- At a later point the first accumulator holds what it held plus the block's column sums. -/
theorem outB3 (c : Dev nD) (i : grid1.Coords) (a1 : Memref sig .tc .vmem S20000x64 .f32) (h1 : a1.IsWhole)
    (a2 : Memref sig .tc .vmem S1x64 .f32) (h2 : a2.IsWhole) (a3 : Memref sig .tc .vmem S20000x64 .f32) (h3 : a3.IsWhole)
    (a4 : Memref sig .tc .vmem S1x64 .f32) (h4 : a4.IsWhole) (a5 : Memref sig .tc .vmem S1x64 .f32) (h5 : a5.IsWhole)
    (hc : ¬cond1_0 i) (x0 : Vec F S20000x64 .f32) (x1 : Vec F S1x64 .f32) (xo3 xo4 : Vec F S1x64 .f32) :
    out1_B_3 c i a1 h1 a2 h2 a3 h3 a4 h4 a5 h5 hc x0 x1 xo3 xo4 = k1_pay4 x0 x1 xo3 := by
  unfold out1_B_3
  rw [View.read_writes_eq_canon _ _ _ (cover1_B_3 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, h5.read_unread, View.ld_unit_zero (S := S20000x64) hz2, View.ld_unit_zero (S := S1x64) hz2]

/-- At a later point the second accumulator holds what it held plus the block's column sums of squares. -/
theorem outB4 (c : Dev nD) (i : grid1.Coords) (a1 : Memref sig .tc .vmem S20000x64 .f32) (h1 : a1.IsWhole)
    (a2 : Memref sig .tc .vmem S1x64 .f32) (h2 : a2.IsWhole) (a3 : Memref sig .tc .vmem S20000x64 .f32) (h3 : a3.IsWhole)
    (a4 : Memref sig .tc .vmem S1x64 .f32) (h4 : a4.IsWhole) (a5 : Memref sig .tc .vmem S1x64 .f32) (h5 : a5.IsWhole)
    (hc : ¬cond1_0 i) (x0 : Vec F S20000x64 .f32) (x1 : Vec F S1x64 .f32) (xo3 xo4 : Vec F S1x64 .f32) :
    out1_B_4 c i a1 h1 a2 h2 a3 h3 a4 h4 a5 h5 hc x0 x1 xo3 xo4 = k1_pay5 x0 x1 xo4 := by
  unfold out1_B_4
  rw [View.read_writes_eq_canon _ _ _ (cover1_B_4 c i a1 h1 a2 h2 a3 h3 a4 h4 a5 h5 hc x0 x1 xo3 xo4)]
  unfold kernelRun1_B
  dsimp only
  sl_unfold_words
  rw [View.canon_unit_zero hz2]
  simp only [View.readAt_eq_ld, h1.read_unread, h2.read_unread, h4.read_unread, h5.read_unread, View.ld_unit_zero (S := S20000x64) hz2, View.ld_unit_zero (S := S1x64) hz2]

end Pieces

section Payloads

/-- A 1 x 64 row index with its unit coordinate dropped is the channel index. -/
theorem drop_unit (u : Fin 1) (q : Fin 64) : (fun a : Fin 1 => (ix2 u q : S1x64.Idx) a.succ) = (ix1 q : S64.Idx) := by
  funext a; match a with | ⟨0, _⟩ => rfl

/-- Row p, channel q of the block plus the bias row: the block's entry plus the bias of channel q. -/
theorem pay3_apply (x0 : FVec Ideal S20000x64 .f32) (x1 : FVec Ideal S1x64 .f32) (p : Fin 20000) (q : Fin 64) :
    k1_pay3 x0 x1 (ix2 p q) = x0 (ix2 p q) + x1 (ix2 (0 : Fin 1) q) := by
  unfold k1_pay3
  refine (addf_apply _ _ _).trans ?_
  refine congrArg₂ (· + ·) (congrFun (shapeCast_self x0 _) _) ?_
  refine (broadcastTo_apply _ _ (ix2 p q) (ix2 (0 : Fin 1) q) fun a => ?_).trans (congrFun (shapeCast_self x1 _) _)
  match a with
  | ⟨0, _⟩ => rfl
  | ⟨1, _⟩ => rfl

/-- The column sums of the biased block over its 20000 rows, added to what the accumulator held. -/
theorem pay4_apply (x0 : FVec Ideal S20000x64 .f32) (x1 : FVec Ideal S1x64 .f32) (acc : FVec Ideal S1x64 .f32) (u : Fin 1) (q : Fin 64) :
    k1_pay4 x0 x1 acc (ix2 u q) = acc (ix2 u q) + ∑ k : Fin 20000, (x0 (ix2 k q) + x1 (ix2 (0 : Fin 1) q)) := by
  unfold k1_pay4
  refine (addf_apply _ _ _).trans ?_
  refine congrArg₂ (· + ·) (congrFun (shapeCast_self acc _) _) ?_
  refine (shapeCast_addUnit_apply ![64] _ _ (ix2 u q)).trans ?_
  rw [drop_unit]
  refine (Ideal.multiReduction_add_single (k1_pay3 x0 x1) _ reduces_S20000x64_S64 _ _ (ix1 q)).trans ?_
  refine Finset.sum_congr rfl fun k _ => ?_
  exact pay3_apply x0 x1 k q

/-- The column sums of the squares of the biased block, added to what the accumulator held. -/
theorem pay5_apply (x0 : FVec Ideal S20000x64 .f32) (x1 : FVec Ideal S1x64 .f32) (acc : FVec Ideal S1x64 .f32) (u : Fin 1) (q : Fin 64) :
    k1_pay5 x0 x1 acc (ix2 u q)
      = acc (ix2 u q) + ∑ k : Fin 20000, (x0 (ix2 k q) + x1 (ix2 (0 : Fin 1) q)) * (x0 (ix2 k q) + x1 (ix2 (0 : Fin 1) q)) := by
  unfold k1_pay5
  refine (addf_apply _ _ _).trans ?_
  refine congrArg₂ (· + ·) (congrFun (shapeCast_self acc _) _) ?_
  refine (shapeCast_addUnit_apply ![64] _ _ (ix2 u q)).trans ?_
  rw [drop_unit]
  refine (Ideal.multiReduction_add_single (mulf (k1_pay3 x0 x1) (k1_pay3 x0 x1)) _ reduces_S20000x64_S64 _ _ (ix1 q)).trans ?_
  refine Finset.sum_congr rfl fun k _ => ?_
  refine (mulf_apply _ _ _).trans ?_
  exact congrArg₂ (· * ·) (pay3_apply x0 x1 k q) (pay3_apply x0 x1 k q)

/-- The reset row is zero everywhere. -/
theorem pay1_apply (j : S1x64.Idx) : (k1_pay1 (F := Ideal)) j = 0 := by
  unfold k1_pay1
  exact Ideal.ofBits_zero_f32
theorem pay2_apply (j : S1x64.Idx) : (k1_pay2 (F := Ideal)) j = 0 := by
  unfold k1_pay2
  exact Ideal.ofBits_zero_f32

end Payloads

section Blocks

/-- The block indices at the ten points: the table and the biased table sit at block row t, the bias row and the two
    accumulators at block (0, 0) at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The entry table, the bias row, and the biased table, as the region finds them. -/
abbrev tab (c : Dev nD) : S200000x64.Idx → EReal := V c main_v19
abbrev biasRow (c : Dev nD) : S1x64.Idx → EReal := V c main_v20
abbrev btab (c : Dev nD) : S200000x64.Idx → EReal := Cert.Spec.biased (tab V c) (rowVec (biasRow V c))
/-- The entry table's block of 20000 rows and the bias row's block at point t. -/
abbrev tabBlk (c : Dev nD) (t : Fin cfg1.N) : FVec Ideal S20000x64 .f32 := iblk1 V c 0 t
abbrev biasBlk (c : Dev nD) (t : Fin cfg1.N) : FVec Ideal S1x64 .f32 := iblk1 V c 1 t

/-- Row p of the table's block at point t is row 20000 t + p of the table. -/
theorem tabBlk_apply (c : Dev nD) (t : Fin cfg1.N) (p : Fin 20000) (q : Fin 64) (r : Fin 200000)
    (hr : r.val = 20000 * t.val + p.val) : tabBlk V c t (ix2 p q) = tab V c (ix2 r q) := by
  unfold tabBlk iblk1
  rw [View.read_apply]
  show V c main_v19 _ = V c main_v19 _
  congr 1
  funext a
  apply Fin.ext
  obtain ⟨e0, e1, -⟩ := idx_facts t
  match a with
  | ⟨0, _⟩ => show win1_0.index t 0 * 20000 + 1 * p.val = r.val; rw [e0]; omega
  | ⟨1, _⟩ => show win1_0.index t 1 * 64 + 1 * q.val = q.val; rw [e1]; omega

/-- The bias row's block at any point is the bias row. -/
theorem biasBlk_apply (c : Dev nD) (t : Fin cfg1.N) (u : Fin 1) (q : Fin 64) :
    biasBlk V c t (ix2 u q) = biasRow V c (ix2 (0 : Fin 1) q) := by
  unfold biasBlk iblk1
  rw [View.read_apply]
  show V c main_v20 _ = V c main_v20 _
  congr 1
  funext a
  apply Fin.ext
  obtain ⟨-, -, e2, e3, -⟩ := idx_facts t
  have hu := u.isLt
  match a with
  | ⟨0, _⟩ => show win1_1.index t 0 * 1 + 1 * u.val = 0; rw [e2]; omega
  | ⟨1, _⟩ => show win1_1.index t 1 * 64 + 1 * q.val = q.val; rw [e3]; omega

end Blocks

section Sums

/-- A sum over the 200000 rows is the sum over the 10 blocks of the sums over each block's 20000 rows. -/
theorem sum_rows_blocks (f : Fin 200000 → EReal) :
    ∑ r : Fin 200000, f r
      = ∑ s : Fin 10, ∑ p : Fin 20000, f ⟨20000 * s.val + p.val, by have := s.isLt; have := p.isLt; omega⟩ := by
  rw [← Equiv.sum_comp (finProdFinEquiv (m := 10) (n := 20000)) f, Fintype.sum_prod_type]
  refine Finset.sum_congr rfl fun s _ => Finset.sum_congr rfl fun p _ => congrArg f (Fin.ext ?_)
  show p.val + 20000 * s.val = 20000 * s.val + p.val
  omega

/-- The sum of channel q over the rows of block s (zero past the last block). -/
def blockSum (Yf : S200000x64.Idx → EReal) (s : ℕ) (q : Fin 64) : EReal :=
  if h : s < 10 then ∑ p : Fin 20000, Yf (ix2 (⟨20000 * s + p.val, by have := p.isLt; omega⟩ : Fin 200000) q) else 0

/-- The ten block sums add up to the sum over all rows. -/
theorem blockSum_total (Yf : S200000x64.Idx → EReal) (q : Fin 64) :
    ∑ s ∈ Finset.range 10, blockSum Yf s q = ∑ r : Fin 200000, Yf (ix2 r q) := by
  rw [Finset.sum_range, sum_rows_blocks fun r => Yf (ix2 r q)]
  refine Finset.sum_congr rfl fun s _ => ?_
  unfold blockSum
  rw [dif_pos s.isLt]

/-- The column sums the body adds at point t are block t's sums of the biased table. -/
theorem blk_sum (c : Dev nD) (t : Fin cfg1.N) (q : Fin 64) :
    ∑ k : Fin 20000, (tabBlk V c t (ix2 k q) + biasBlk V c t (ix2 (0 : Fin 1) q)) = blockSum (btab V c) t.val q := by
  have hN : t.val < 10 := lt_of_lt_of_eq t.isLt (show cfg1.N = 10 from N_1)
  unfold blockSum
  rw [dif_pos hN]
  refine Finset.sum_congr rfl fun k _ => ?_
  rw [tabBlk_apply V c t k q ⟨20000 * t.val + k.val, by have := k.isLt; omega⟩ rfl, biasBlk_apply]
  rfl

/-- Likewise for the squares. -/
theorem blk_sumSq (c : Dev nD) (t : Fin cfg1.N) (q : Fin 64) :
    ∑ k : Fin 20000, (tabBlk V c t (ix2 k q) + biasBlk V c t (ix2 (0 : Fin 1) q))
        * (tabBlk V c t (ix2 k q) + biasBlk V c t (ix2 (0 : Fin 1) q))
      = blockSum (fun i => btab V c i * btab V c i) t.val q := by
  have hN : t.val < 10 := lt_of_lt_of_eq t.isLt (show cfg1.N = 10 from N_1)
  unfold blockSum
  rw [dif_pos hN]
  refine Finset.sum_congr rfl fun k _ => ?_
  rw [tabBlk_apply V c t k q ⟨20000 * t.val + k.val, by have := k.isLt; omega⟩ rfl, biasBlk_apply]
  rfl

/-- The column sum of channel q, spelled over the rows. -/
theorem colSum_ix1 (Yf : S200000x64.Idx → EReal) (q : Fin 64) :
    Cert.Spec.colSum Yf (ix1 q) = ∑ r : Fin 200000, Yf (ix2 r q) := rfl
/-- The column sum of squares of channel q, spelled over the rows. -/
theorem colSumSq_ix1 (Yf : S200000x64.Idx → EReal) (q : Fin 64) :
    Cert.Spec.colSumSq Yf (ix1 q) = ∑ r : Fin 200000, Yf (ix2 r q) * Yf (ix2 r q) := rfl

end Sums

section Invariant

/-- After every point the first output's buffer holds the point's block of the table plus the bias row. -/
theorem outs2_eq (c : Dev nD) (t : Fin cfg1.N) :
    (outsAt1 V c t.val t.isLt).1 = k1_pay3 (F := Ideal) (tabBlk V c t) (biasBlk V c t) := by
  by_cases h0 : t.val % 10 = 0
  · rw [outsAt1_A V c t h0]
    dsimp only
    exact outA2 (F := Ideal) c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t)
  · rw [outsAt1_B V c t h0]
    dsimp only
    exact outB2 (F := Ideal) c (grid1.coords t) (ms1_0 t) (hs1_0 t) (ms1_1 t) (hs1_1 t) (ms1_2 t) (hs1_2 t) (ms1_3 t) (hs1_3 t) (ms1_4 t) (hs1_4 t) (fun hh => h0 ((hcond1_0 t).mp hh)) (iblk1 V c 0 t) (iblk1 V c 1 t) _ _

/-- After point n the first accumulator holds the sums of the biased table over the blocks 0 … n: zero plus block 0's
    sums at the first point, what it held plus block n's sums afterwards. -/
theorem acc3_eq (c : Dev nD) : ∀ (n : ℕ) (h : n < cfg1.N) (u : Fin 1) (q : Fin 64),
    (outsAt1 V c n h).2.1 (ix2 u q) = ∑ s ∈ Finset.range (n + 1), blockSum (btab V c) s q
  | 0, h, u, q => by
    rw [outsAt1_A V c ⟨0, h⟩ rfl]
    dsimp only
    refine (congrFun (outA3 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩)) (ix2 u q)).trans ?_
    refine (pay4_apply (tabBlk V c ⟨0, h⟩) (biasBlk V c ⟨0, h⟩) (k1_pay1 (F := Ideal)) u q).trans ?_
    rw [pay1_apply, zero_add, Finset.sum_range_one]
    exact blk_sum V c ⟨0, h⟩ q
  | n + 1, h, u, q => by
    have hN : cfg1.N = 10 := N_1
    have hB : ¬(⟨n + 1, h⟩ : Fin cfg1.N).val % 10 = 0 := by dsimp only; omega
    rw [outsAt1_B V c ⟨n + 1, h⟩ hB]
    dsimp only
    refine (congrFun (outB3 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩) _ _) (ix2 u q)).trans ?_
    refine (pay4_apply (tabBlk V c ⟨n + 1, h⟩) (biasBlk V c ⟨n + 1, h⟩) (outsAt1 V c n (Nat.lt_of_succ_lt h)).2.1 u q).trans ?_
    rw [Finset.sum_range_succ _ (n + 1), acc3_eq c n (Nat.lt_of_succ_lt h) u q]
    exact congrArg _ (blk_sum V c ⟨n + 1, h⟩ q)

/-- After point n the second accumulator holds the sums of the squares over the blocks 0 … n. -/
theorem acc4_eq (c : Dev nD) : ∀ (n : ℕ) (h : n < cfg1.N) (u : Fin 1) (q : Fin 64),
    (outsAt1 V c n h).2.2 (ix2 u q) = ∑ s ∈ Finset.range (n + 1), blockSum (fun i => btab V c i * btab V c i) s q
  | 0, h, u, q => by
    rw [outsAt1_A V c ⟨0, h⟩ rfl]
    dsimp only
    refine (congrFun (outA4 (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) ((hcond1_0 ⟨0, h⟩).mpr rfl) (iblk1 V c 0 ⟨0, h⟩) (iblk1 V c 1 ⟨0, h⟩)) (ix2 u q)).trans ?_
    refine (pay5_apply (tabBlk V c ⟨0, h⟩) (biasBlk V c ⟨0, h⟩) (k1_pay2 (F := Ideal)) u q).trans ?_
    rw [pay2_apply, zero_add, Finset.sum_range_one]
    exact blk_sumSq V c ⟨0, h⟩ q
  | n + 1, h, u, q => by
    have hN : cfg1.N = 10 := N_1
    have hB : ¬(⟨n + 1, h⟩ : Fin cfg1.N).val % 10 = 0 := by dsimp only; omega
    rw [outsAt1_B V c ⟨n + 1, h⟩ hB]
    dsimp only
    refine (congrFun (outB4 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (fun hh => hB ((hcond1_0 ⟨n + 1, h⟩).mp hh)) (iblk1 V c 0 ⟨n + 1, h⟩) (iblk1 V c 1 ⟨n + 1, h⟩) _ _) (ix2 u q)).trans ?_
    refine (pay5_apply (tabBlk V c ⟨n + 1, h⟩) (biasBlk V c ⟨n + 1, h⟩) (outsAt1 V c n (Nat.lt_of_succ_lt h)).2.2 u q).trans ?_
    rw [Finset.sum_range_succ _ (n + 1), acc4_eq c n (Nat.lt_of_succ_lt h) u q]
    exact congrArg _ (blk_sumSq V c ⟨n + 1, h⟩ q)

end Invariant

section Final

/-- What every point writes back of the first output is its block of the biased table. -/
theorem flushed2_eq (c : Dev nD) (t : Fin cfg1.N) :
    (dat1 (F := Ideal) V c).flushed 2 t = ((cfg1.win 2).blk t).view.read (Elt Ideal) (btab V c) := by
  show (cfg1.win 2).cut (grid1.coords t) ((dat1 V c).after 2 t) = _
  rw [after1_2, outs2_eq]
  funext j
  obtain ⟨p, q, rfl⟩ : ∃ (p : Fin 20000) (q : Fin 64), j = ix2 p q := ⟨j 0, j 1, eq_ix2 j⟩
  rw [View.read_apply]
  have hN : t.val < 10 := lt_of_lt_of_eq t.isLt (show cfg1.N = 10 from N_1)
  have e : ((cfg1.win 2).blk t).view.emb (ix2 p q)
      = (ix2 (⟨20000 * t.val + p.val, by have := p.isLt; omega⟩ : Fin 200000) q : S200000x64.Idx) := by
    funext a
    apply Fin.ext
    obtain ⟨-, -, -, -, e4, e5, -⟩ := idx_facts t
    match a with
    | ⟨0, _⟩ => show win1_2.index t 0 * 20000 + 1 * p.val = 20000 * t.val + p.val; rw [e4]; omega
    | ⟨1, _⟩ => show win1_2.index t 1 * 64 + 1 * q.val = q.val; rw [e5]; omega
  rw [e]
  refine (pay3_apply (tabBlk V c t) (biasBlk V c t) p q).trans ?_
  rw [tabBlk_apply V c t p q ⟨20000 * t.val + p.val, by have := p.isLt; omega⟩ rfl, biasBlk_apply]
  rfl

/-- A table index lies in point t's block of the first output iff each coordinate lies in the block's range. -/
theorem mem_blk2 (t : Fin cfg1.N) (i : S200000x64.Idx) :
    i ∈ ((cfg1.win 2).blk t).view.set ↔ ∀ a : Fin 2, win1_2.index t a * S20000x64.size a ≤ (i a).val
      ∧ (i a).val < win1_2.index t a * S20000x64.size a + S20000x64.size a := by
  show i ∈ ((View.whole main_v21_0).slice (win1_2.rect t)).set ↔ _
  rw [View.set_slice_whole, Rect.mem_set_unit]
  exact Iff.rfl

/-- Row r of the table lies in the block of point r / 20000. -/
theorem cover2 (i : S200000x64.Idx) :
    ∃ t : Fin cfg1.N, (cfg1.win 2).flush t = true ∧ i ∈ ((cfg1.win 2).blk t).view.set := by
  have hi0 : (i 0).val < 200000 := (i 0).isLt
  have hi1 : (i 1).val < 64 := (i 1).isLt
  have hN : cfg1.N = 10 := N_1
  have ht : (i 0).val / 20000 < cfg1.N := by rw [hN]; omega
  refine ⟨⟨(i 0).val / 20000, ht⟩, flush1_2 _, ?_⟩
  rw [mem_blk2]
  obtain ⟨-, -, -, -, e4, e5, -⟩ := idx_facts ⟨(i 0).val / 20000, ht⟩
  intro a
  match a with
  | ⟨0, _⟩ =>
    show win1_2.index ⟨(i 0).val / 20000, ht⟩ 0 * 20000 ≤ (i 0).val
      ∧ (i 0).val < win1_2.index ⟨(i 0).val / 20000, ht⟩ 0 * 20000 + 20000
    rw [e4]; dsimp only; omega
  | ⟨1, _⟩ =>
    show win1_2.index ⟨(i 0).val / 20000, ht⟩ 1 * 64 ≤ (i 1).val
      ∧ (i 1).val < win1_2.index ⟨(i 0).val / 20000, ht⟩ 1 * 64 + 64
    rw [e5]; omega

/-- Reading the block of a 1 x 64 array at any point reads the array: the block index is (0, 0). -/
theorem read_blk3 (G : S1x64.Idx → EReal) (t : Fin cfg1.N) (u : Fin 1) (q : Fin 64) :
    ((cfg1.win 3).blk t).view.read (Elt Ideal) G (ix2 u q) = G (ix2 (0 : Fin 1) q) := by
  rw [View.read_apply]
  show G _ = G _
  congr 1
  funext a
  apply Fin.ext
  obtain ⟨-, -, -, -, -, -, e6, e7, -⟩ := idx_facts t
  have hu := u.isLt
  match a with
  | ⟨0, _⟩ => show win1_3.index t 0 * 1 + 1 * u.val = 0; rw [e6]; omega
  | ⟨1, _⟩ => show win1_3.index t 1 * 64 + 1 * q.val = q.val; rw [e7]; omega
theorem read_blk4 (G : S1x64.Idx → EReal) (t : Fin cfg1.N) (u : Fin 1) (q : Fin 64) :
    ((cfg1.win 4).blk t).view.read (Elt Ideal) G (ix2 u q) = G (ix2 (0 : Fin 1) q) := by
  rw [View.read_apply]
  show G _ = G _
  congr 1
  funext a
  apply Fin.ext
  obtain ⟨-, -, -, -, -, -, -, -, e8, e9⟩ := idx_facts t
  have hu := u.isLt
  match a with
  | ⟨0, _⟩ => show win1_4.index t 0 * 1 + 1 * u.val = 0; rw [e8]; omega
  | ⟨1, _⟩ => show win1_4.index t 1 * 64 + 1 * q.val = q.val; rw [e9]; omega

/-- The one write-back of the first accumulator, after the last point, writes the column sums over all ten blocks. -/
theorem flushed3_eq (c : Dev nD) (t : Fin cfg1.N) (hf : (cfg1.win 3).flush t = true) :
    (dat1 (F := Ideal) V c).flushed 3 t = ((cfg1.win 3).blk t).view.read (Elt Ideal)
      (fun j : S1x64.Idx => Cert.Spec.colSum (btab V c) (ix1 (j 1))) := by
  have hN : cfg1.N = 10 := N_1
  have h9 : t.val + 1 = 10 := by have := (flush1_3 t).mp hf; have := t.isLt; omega
  show (cfg1.win 3).cut (grid1.coords t) ((dat1 V c).after 3 t) = _
  rw [after1_3]
  funext j
  obtain ⟨u, q, rfl⟩ : ∃ (u : Fin 1) (q : Fin 64), j = ix2 u q := ⟨j 0, j 1, eq_ix2 j⟩
  refine Eq.trans ?_ (read_blk3 (fun j : S1x64.Idx => Cert.Spec.colSum (btab V c) (ix1 (j 1))) t u q).symm
  refine (acc3_eq V c t.val t.isLt u q).trans ?_
  rw [h9, blockSum_total]
  exact (colSum_ix1 (btab V c) q).symm

/-- Likewise the second accumulator's one write-back writes the column sums of the squares. -/
theorem flushed4_eq (c : Dev nD) (t : Fin cfg1.N) (hf : (cfg1.win 4).flush t = true) :
    (dat1 (F := Ideal) V c).flushed 4 t = ((cfg1.win 4).blk t).view.read (Elt Ideal)
      (fun j : S1x64.Idx => Cert.Spec.colSumSq (btab V c) (ix1 (j 1))) := by
  have hN : cfg1.N = 10 := N_1
  have h9 : t.val + 1 = 10 := by have := (flush1_4 t).mp hf; have := t.isLt; omega
  show (cfg1.win 4).cut (grid1.coords t) ((dat1 V c).after 4 t) = _
  rw [after1_4]
  funext j
  obtain ⟨u, q, rfl⟩ : ∃ (u : Fin 1) (q : Fin 64), j = ix2 u q := ⟨j 0, j 1, eq_ix2 j⟩
  refine Eq.trans ?_ (read_blk4 (fun j : S1x64.Idx => Cert.Spec.colSumSq (btab V c) (ix1 (j 1))) t u q).symm
  refine (acc4_eq V c t.val t.isLt u q).trans ?_
  rw [h9, blockSum_total]
  exact (colSumSq_ix1 (btab V c) q).symm

/-- An index of an accumulator's array lies in point t's block iff each coordinate lies in the block's range. -/
theorem mem_blk3 (t : Fin cfg1.N) (i : S1x64.Idx) :
    i ∈ ((cfg1.win 3).blk t).view.set ↔ ∀ a : Fin 2, win1_3.index t a * S1x64.size a ≤ (i a).val
      ∧ (i a).val < win1_3.index t a * S1x64.size a + S1x64.size a := by
  show i ∈ ((View.whole main_v21_1).slice (win1_3.rect t)).set ↔ _
  rw [View.set_slice_whole, Rect.mem_set_unit]
  exact Iff.rfl
theorem mem_blk4 (t : Fin cfg1.N) (i : S1x64.Idx) :
    i ∈ ((cfg1.win 4).blk t).view.set ↔ ∀ a : Fin 2, win1_4.index t a * S1x64.size a ≤ (i a).val
      ∧ (i a).val < win1_4.index t a * S1x64.size a + S1x64.size a := by
  show i ∈ ((View.whole main_v21_2).slice (win1_4.rect t)).set ↔ _
  rw [View.set_slice_whole, Rect.mem_set_unit]
  exact Iff.rfl

/-- The last point's block is the whole 1 x 64 array. -/
theorem cover3 (i : S1x64.Idx) :
    ∃ t : Fin cfg1.N, (cfg1.win 3).flush t = true ∧ i ∈ ((cfg1.win 3).blk t).view.set := by
  refine ⟨t1_9, (flush1_3 t1_9).mpr rfl, ?_⟩
  rw [mem_blk3]
  obtain ⟨-, -, -, -, -, -, e6, e7, -⟩ := idx_facts t1_9
  have hi0 : (i 0).val < 1 := (i 0).isLt
  have hi1 : (i 1).val < 64 := (i 1).isLt
  intro a
  match a with
  | ⟨0, _⟩ => show win1_3.index t1_9 0 * 1 ≤ (i 0).val ∧ (i 0).val < win1_3.index t1_9 0 * 1 + 1; rw [e6]; omega
  | ⟨1, _⟩ => show win1_3.index t1_9 1 * 64 ≤ (i 1).val ∧ (i 1).val < win1_3.index t1_9 1 * 64 + 64; rw [e7]; omega
theorem cover4 (i : S1x64.Idx) :
    ∃ t : Fin cfg1.N, (cfg1.win 4).flush t = true ∧ i ∈ ((cfg1.win 4).blk t).view.set := by
  refine ⟨t1_9, (flush1_4 t1_9).mpr rfl, ?_⟩
  rw [mem_blk4]
  obtain ⟨-, -, -, -, -, -, -, -, e8, e9⟩ := idx_facts t1_9
  have hi0 : (i 0).val < 1 := (i 0).isLt
  have hi1 : (i 1).val < 64 := (i 1).isLt
  intro a
  match a with
  | ⟨0, _⟩ => show win1_4.index t1_9 0 * 1 ≤ (i 0).val ∧ (i 0).val < win1_4.index t1_9 0 * 1 + 1; rw [e8]; omega
  | ⟨1, _⟩ => show win1_4.index t1_9 1 * 64 ≤ (i 1).val ∧ (i 1).val < win1_4.index t1_9 1 * 64 + 64; rw [e9]; omega

end Final

/-- The biased table: every block of 20000 rows is the entry block plus the bias row. -/
theorem arr1_2 (c : Dev nD) :
    (dat1 (F := Ideal) V c).arrAt 2 cfg1.N
      = Cert.Spec.biased (V c main_v19 : S200000x64.Idx → EReal) (rowVec (V c main_v20 : S1x64.Idx → EReal)) :=
  (dat1 (F := Ideal) V c).arrAt_eq_of_cover 2 (btab V c) (fun t _ => flushed2_eq V c t) cover2

/-- The first accumulator ends at the column sums of the biased table over all 200000 rows. -/
theorem arr1_3 (c : Dev nD) :
    (dat1 (F := Ideal) V c).arrAt 3 cfg1.N
      = fun j : S1x64.Idx => Cert.Spec.colSum (Cert.Spec.biased (V c main_v19 : S200000x64.Idx → EReal)
          (rowVec (V c main_v20 : S1x64.Idx → EReal))) (ix1 (j 1)) :=
  (dat1 (F := Ideal) V c).arrAt_eq_of_cover 3 (fun j : S1x64.Idx => Cert.Spec.colSum (btab V c) (ix1 (j 1)))
    (flushed3_eq V c) cover3

/-- The second accumulator ends at the column sums of the squares. -/
theorem arr1_4 (c : Dev nD) :
    (dat1 (F := Ideal) V c).arrAt 4 cfg1.N
      = fun j : S1x64.Idx => Cert.Spec.colSumSq (Cert.Spec.biased (V c main_v19 : S200000x64.Idx → EReal)
          (rowVec (V c main_v20 : S1x64.Idx → EReal))) (ix1 (j 1)) :=
  (dat1 (F := Ideal) V c).arrAt_eq_of_cover 4 (fun j : S1x64.Idx => Cert.Spec.colSumSq (btab V c) (ix1 (j 1)))
    (flushed4_eq V c) cover4

end Cert.KernelIdeal.Val1

end
-- ==== Proof.Region2.lean ====
/-
  The third kernel region: scale, shift and the cut at zero.

  Ten grid points; point t handles rows 20000 t to 20000 t + 19999 of the biased table and writes
  max(block * scale row + shift row, 0) back at the same place. The blocks tile the table, so the whole result is
  that function of the table, the scale row and the shift row the region was entered with.
-/
import proofs.«174729_j50354196578891_1_alg».proof.Proof.Gen.KernelIdeal.Frame
import proofs.«174729_j50354196578891_1_alg».proof.Proof.Spec
import Idealize.ShloMosaic.Lib.ValueIdx
import Idealize.ShloMosaic.Lib.Pipeline.Value
import Idealize.ShloMosaic.PureOps.Ideal.Laws

noncomputable section

namespace Cert.KernelIdeal.Val2

open Idealize.ShloMosaic Idealize.ShloMosaic.TcCoe Idealize.SL.Sem Idealize.ShloMosaic.ValueIdx
open Cert.KernelIdeal Cert.KernelIdeal.Gen
open Cert.Spec (rowVec)

variable (V : (c : Dev nD) → (b : Ref sig .tc) → Buf (Elt Ideal) ((c : Thread nD τ).loc b))

/-! # The third pass: every row scaled, shifted and cut below at zero

The table of 200000 rows is walked in ten blocks of 20000 rows. At each block the one scale row and the one
shift row are spread over the block's rows, the block is multiplied by the one and added to the other, and the
maximum with zero is taken. Each entry of the result depends only on the same entry of the table and on its
channel's scale and shift, and the ten blocks fill the table, so the table ends as that function of its entry
contents, entry by entry. -/

/-- The two zero offsets, however they are spelt. -/
theorem hz2 : (![0, 0] : Fin 2 → Nat) = fun _ => 0 := funext fun a => by fin_cases a <;> rfl

/-- One row spread over 20000 rows reads, at (p, q), the row's entry q. -/
theorem bcast_row (v : Vec Ideal S1x64 .f32) (p : Fin 20000) (q : Fin 64) :
    broadcastTo S20000x64 v broadcasts_S1x64_S20000x64 (ix2 p q) = v (ix2 (0 : Fin 1) q) := by
  refine broadcastTo_apply v _ (ix2 p q) (ix2 (0 : Fin 1) q) fun ax => ?_
  match ax with
  | ⟨0, _⟩ => rfl
  | ⟨1, _⟩ => rfl

/-- What the body computes at row p, channel q of a block: x * scale[q] + shift[q], then the maximum with 0. -/
theorem pay1_apply (x0 : Vec Ideal S20000x64 .f32) (x1 x2 : Vec Ideal S1x64 .f32) (p : Fin 20000) (q : Fin 64) :
    k2_pay1 x0 x1 x2 (ix2 p q) = max (x0 (ix2 p q) * x1 (ix2 (0 : Fin 1) q) + x2 (ix2 (0 : Fin 1) q)) 0 := by
  unfold k2_pay1
  simp only [shapeCast_self]
  rw [maximumf_apply, addf_apply, mulf_apply, broadcast_apply, bcast_row, bcast_row]
  show max _ (Ideal.ofBits .f32 0x00000000#32) = _
  rw [Ideal.ofBits_zero_f32]

/-- The same at any index j of the block: its channel is j's second coordinate. -/
theorem pay1_at (x0 : Vec Ideal S20000x64 .f32) (x1 x2 : Vec Ideal S1x64 .f32) (j : S20000x64.Idx) :
    k2_pay1 x0 x1 x2 j = max (x0 j * x1 (ix2 (0 : Fin 1) (j 1)) + x2 (ix2 (0 : Fin 1) (j 1))) 0 := by
  obtain ⟨p, q, rfl⟩ : ∃ (p : Fin 20000) (q : Fin 64), j = ix2 p q := ⟨j 0, j 1, eq_ix2 j⟩
  exact pay1_apply x0 x1 x2 p q

/-- Where the blocks sit at point t: the table's input block and output block are both row block t, column block 0;
    the scale row and the shift row are always their one block (0, 0). -/
theorem idx_facts : ∀ t : Fin cfg2.N, win2_0.index t (0 : Fin 2) = win2_3.index t (0 : Fin 2)
    ∧ win2_0.index t (1 : Fin 2) = 0 ∧ win2_3.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val :=
  (by decide +kernel : ∀ t : Fin grid2.N, _)

/-- Index j of the input block and index j of the output block are the same entry of the table. -/
theorem emb0 (t : Fin cfg2.N) (j : S20000x64.Idx) :
    ((cfg2.win 0).blk t).view.emb j = ((cfg2.win 3).blk t).view.emb j := by
  obtain ⟨e0, e1, e2, e3, e4, e5, e6, e7⟩ := idx_facts t
  funext a; apply Fin.ext
  match a with
  | ⟨0, _⟩ => show win2_0.index t (0 : Fin 2) * 20000 + 1 * (j 0).val = win2_3.index t (0 : Fin 2) * 20000 + 1 * (j 0).val; omega
  | ⟨1, _⟩ => show win2_0.index t (1 : Fin 2) * 64 + 1 * (j 1).val = win2_3.index t (1 : Fin 2) * 64 + 1 * (j 1).val; omega

/-- Channel (j 1) of the scale row's block is entry (0, channel) of the scale row, the channel being that of the
    table entry the output block's index j names. -/
theorem emb1 (t : Fin cfg2.N) (j : S20000x64.Idx) :
    ((cfg2.win 1).blk t).view.emb (ix2 (0 : Fin 1) (j 1)) = ix2 (0 : Fin 1) ((((cfg2.win 3).blk t).view.emb j) 1) := by
  obtain ⟨e0, e1, e2, e3, e4, e5, e6, e7⟩ := idx_facts t
  funext a; apply Fin.ext
  match a with
  | ⟨0, _⟩ => show win2_1.index t (0 : Fin 2) * 1 + 1 * 0 = 0; omega
  | ⟨1, _⟩ => show win2_1.index t (1 : Fin 2) * 64 + 1 * (j 1).val = win2_3.index t (1 : Fin 2) * 64 + 1 * (j 1).val; omega

/-- The same for the shift row. -/
theorem emb2 (t : Fin cfg2.N) (j : S20000x64.Idx) :
    ((cfg2.win 2).blk t).view.emb (ix2 (0 : Fin 1) (j 1)) = ix2 (0 : Fin 1) ((((cfg2.win 3).blk t).view.emb j) 1) := by
  obtain ⟨e0, e1, e2, e3, e4, e5, e6, e7⟩ := idx_facts t
  funext a; apply Fin.ext
  match a with
  | ⟨0, _⟩ => show win2_2.index t (0 : Fin 2) * 1 + 1 * 0 = 0; omega
  | ⟨1, _⟩ => show win2_2.index t (1 : Fin 2) * 64 + 1 * (j 1).val = win2_3.index t (1 : Fin 2) * 64 + 1 * (j 1).val; omega

/-- The table, the scale row and the shift row at the start of the pass, over the extended reals. -/
abbrev aX (c : Dev nD) : S200000x64.Idx → EReal := V c main_v21_0
abbrev aSc (c : Dev nD) : S1x64.Idx → EReal := V c main_v36
abbrev aSh (c : Dev nD) : S1x64.Idx → EReal := V c main_v37

/-- What point t writes back is row block t of the scaled, shifted and cut table. -/
theorem flushed_eq (c : Dev nD) (t : Fin cfg2.N) :
    (dat2 (F := Ideal) V c).flushed 3 t = ((cfg2.win 3).blk t).view.read (Elt Ideal)
      (Cert.Spec.affineRelu (V c main_v21_0 : S200000x64.Idx → EReal) (rowVec (V c main_v36 : S1x64.Idx → EReal))
          (rowVec (V c main_v37 : S1x64.Idx → EReal))) := by
  show (cfg2.win 3).cut (grid2.coords t) ((dat2 V c).after 3 t) = _
  rw [after2_3]
  unfold out2_3
  rw [View.canon_unit_zero hz2]
  simp only [View.ld_unit_zero (S := S20000x64) hz2, View.ld_unit_zero (S := S1x64) hz2]
  funext j
  refine (pay1_at _ _ _ j).trans ?_
  show max (aX V c (((cfg2.win 0).blk t).view.emb j) * aSc V c (((cfg2.win 1).blk t).view.emb (ix2 (0 : Fin 1) (j 1)))
      + aSh V c (((cfg2.win 2).blk t).view.emb (ix2 (0 : Fin 1) (j 1)))) 0
    = max (aX V c (((cfg2.win 3).blk t).view.emb j) * aSc V c (ix2 (0 : Fin 1) ((((cfg2.win 3).blk t).view.emb j) 1))
      + aSh V c (ix2 (0 : Fin 1) ((((cfg2.win 3).blk t).view.emb j) 1))) 0
  rw [emb0 t j, emb1 t j, emb2 t j]
  rfl

/-- An entry of the table is in point t's block iff each coordinate is in the block's range on its axis. -/
theorem mem_blk (t : Fin cfg2.N) (i : S200000x64.Idx) :
    i ∈ ((cfg2.win 3).blk t).view.set ↔ ∀ a : Fin 2, win2_3.index t a * S20000x64.size a ≤ (i a).val ∧ (i a).val < win2_3.index t a * S20000x64.size a + S20000x64.size a := by
  show i ∈ ((View.whole main_v38).slice (win2_3.rect t)).set ↔ _
  rw [View.set_slice_whole, Rect.mem_set_unit]
  exact Iff.rfl

/-- Every one of the ten row blocks is some point's. -/
theorem idx_onto : ∀ q0 : Fin 10, ∃ t : Fin cfg2.N, win2_3.index t = ![q0.val, 0] :=
  (by decide +kernel : ∀ q0 : Fin 10, ∃ t : Fin grid2.N, win2_3.index t = ![q0.val, 0])

/-- Row r lies in row block r / 20000: the ten blocks of 20000 rows fill the table. -/
theorem cover (i : S200000x64.Idx) :
    ∃ t : Fin cfg2.N, (cfg2.win 3).flush t = true ∧ i ∈ ((cfg2.win 3).blk t).view.set := by
  have hi0 : (i 0).val < 200000 := (i 0).isLt
  have hi1 : (i 1).val < 64 := (i 1).isLt
  obtain ⟨t, ht⟩ := idx_onto ⟨(i 0).val / 20000, by omega⟩
  have q0 : win2_3.index t (0 : Fin 2) = (i 0).val / 20000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 20000 ≤ (i 0).val ∧ (i 0).val < win2_3.index t (0 : Fin 2) * 20000 + 20000; omega
  | ⟨1, _⟩ => show win2_3.index t (1 : Fin 2) * 64 ≤ (i 1).val ∧ (i 1).val < win2_3.index t (1 : Fin 2) * 64 + 64; omega

/-- After the ten blocks, every row of the table is row * scale + shift per channel, cut below at zero. -/
theorem arr2_3 (c : Dev nD) :
    (dat2 (F := Ideal) V c).arrAt 3 cfg2.N
      = Cert.Spec.affineRelu (V c main_v21_0 : S200000x64.Idx → EReal) (rowVec (V c main_v36 : S1x64.Idx → EReal))
          (rowVec (V c main_v37 : S1x64.Idx → EReal)) :=
  (dat2 (F := Ideal) V c).arrAt_eq_of_cover 3 _ (fun t _ => flushed_eq V c t) cover

end Cert.KernelIdeal.Val2

end
-- ==== Proof.Host.lean ====
/-
  The kernel program's result as a function of its arguments.

  The buffer contents at each boundary of the program are a fold through its host stretches and its three kernel
  regions. Read forwards: the first stretch gathers the feature rows the pair table names (the change of float
  format is the identity on extended reals), so the first region's array of block products is, entry by entry, the
  reference's batched product; the second stretch scatter-adds those products into a zero table with the same
  index arithmetic as the reference, so the table is the reference's own term of the arguments; the second region
  adds the bias row and accumulates the column sums of the biased table and of its squares; the third stretch
  divides both by the row count, forms mean-of-squares minus squared mean, adds the variance offset, takes the
  reciprocal square root, and lays scale = gamma * rsqrt and shift = beta - mean * scale out as rows; the third
  region applies row * scale + shift and cuts below at zero.
-/
import proofs.«174729_j50354196578891_1_alg».proof.Proof.Gen.KernelIdeal.Frame
import proofs.«174729_j50354196578891_1_alg».proof.Proof.Gen.ReferenceIdeal.Read
import proofs.«174729_j50354196578891_1_alg».proof.Proof.Spec
import proofs.«174729_j50354196578891_1_alg».proof.Proof.Region0
import proofs.«174729_j50354196578891_1_alg».proof.Proof.Region1
import proofs.«174729_j50354196578891_1_alg».proof.Proof.Region2
import proofs.«174729_j50354196578891_1_alg».proof.Proof.RefValue
import proofs.«174729_j50354196578891_1_alg».proof.Proof.Algebra
import proofs.«174729_j50354196578891_1_alg».proof.Proof.KernelRun
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostVal

open Idealize.ShloMosaic Idealize.ShloMosaic.TcCoe Idealize.SL.Sem Idealize.ShloMosaic.ValueIdx Idealize.ShloMosaic.StableHlo
open Cert.KernelIdeal Cert.KernelIdeal.Gen
open Cert.Spec (rowVec)
open Cert.KernelIdeal.GenRun

variable (m : (ℓ : Loc nD τ sig) → Buf (Elt Ideal) ℓ) (ρ : Dev nD → PrngReg)

/-! ## The arguments, by their literal types -/

abbrev feats (c : Dev nD) : Cert.Spec.STab.Idx → EReal := m ((c : Thread nD τ).loc main_arg1)
abbrev inRows (c : Dev nD) : S9x150000.Idx → BitVec 32 := m ((c : Thread nD τ).loc main_arg2)
abbrev outRows (c : Dev nD) : S9x150000.Idx → BitVec 32 := m ((c : Thread nD τ).loc main_arg3)
abbrev wts (c : Dev nD) : Cert.Spec.SWts.Idx → EReal := m ((c : Thread nD τ).loc main_arg4)
abbrev bias (c : Dev nD) : Cert.Spec.SCh.Idx → EReal := m ((c : Thread nD τ).loc main_arg5)
abbrev gamma (c : Dev nD) : Cert.Spec.SCh.Idx → EReal := m ((c : Thread nD τ).loc main_arg6)
abbrev beta (c : Dev nD) : Cert.Spec.SCh.Idx → EReal := m ((c : Thread nD τ).loc main_arg7)

/-- The table after the scatter-add, as the reference's own term of the arguments. -/
abbrev table (c : Dev nD) : Cert.Spec.STab.Idx → EReal :=
  Cert.ReferenceIdeal.Read.val_main_v17 (F := Ideal) (feats m c) (inRows m c) (outRows m c) (wts m c)

/-! ## Before the first region -/

theorem W1_v8 (c : Dev nD) :
    (W1 m ρ c (Proc.devRef .tc main_v8) : S9x150000x64.Idx → EReal)
      = Cert.ReferenceIdeal.Read.val_main_v6 (F := Ideal) (feats m c) (inRows m c) := by
  dsimp only [W1, hostOps0]
  after_results
  rfl

theorem W1_v1 (c : Dev nD) : (W1 m ρ c (Proc.devRef .tc main_v1) : S9x64x64.Idx → EReal) = wts m c := by
  dsimp only [W1, hostOps0]
  after_results
  rfl

/-! ## The first region: the products -/

theorem W2_v9 (c : Dev nD) :
    (W2 m ρ c (Proc.devRef .tc main_v9) : S9x150000x64.Idx → EReal)
      = Cert.ReferenceIdeal.Read.val_main_v7 (F := Ideal) (feats m c) (inRows m c) (wts m c) := by
  rw [Cert.ReferenceIdeal.RefValue.ref_contrib]
  refine (W2_arr m ρ c 2).trans ?_
  refine (Cert.KernelIdeal.Val0.arr0 (V1 m ρ) c).trans ?_
  show Cert.Spec.contrib (W1 m ρ c (Proc.devRef .tc main_v8)) (W1 m ρ c (Proc.devRef .tc main_v1)) = _
  rw [W1_v8, W1_v1]

/-! ## Between the first two regions: the scatter-add and the bias row -/

theorem W3_v19 (c : Dev nD) :
    (W3 m ρ c (Proc.devRef .tc main_v19) : Cert.Spec.STab.Idx → EReal) = table m c := by
  dsimp only [W3, hostOps1]
  after_results
  rw [W2_arg3 m ρ c, W2_v9 m ρ c]
  rfl

theorem W3_v20 (c : Dev nD) :
    rowVec (W3 m ρ c (Proc.devRef .tc main_v20) : S1x64.Idx → EReal) = bias m c := by
  have e : (W3 m ρ c (Proc.devRef .tc main_v20) : S1x64.Idx → EReal)
      = shapeCast S1x64 (bias m c) Facts₀.shapeCasts_S64_S1x64 := by
    dsimp only [W3, hostOps1]
    after_results
    rw [W2_arg5 m ρ c]
    rfl
  rw [e]
  funext j
  exact (shapeCast_a_1a_apply (a := 64) (bias m c) Facts₀.shapeCasts_S64_S1x64 (0 : Fin 1) (j 0)).trans
    (congrArg (bias m c) (eq_ix1 j).symm)

/-! ## The second region: the biased table and its column statistics -/

/-- The table with the bias added. -/
abbrev btable (c : Dev nD) : Cert.Spec.STab.Idx → EReal := Cert.Spec.biased (table m c) (bias m c)

theorem W4_v21_0 (c : Dev nD) :
    (W4 m ρ c (Proc.devRef .tc main_v21_0) : Cert.Spec.STab.Idx → EReal) = btable m c := by
  refine (W4_arr m ρ c 2).trans ?_
  refine (Cert.KernelIdeal.Val1.arr1_2 (V3 m ρ) c).trans ?_
  show Cert.Spec.biased (W3 m ρ c (Proc.devRef .tc main_v19)) (rowVec (W3 m ρ c (Proc.devRef .tc main_v20))) = _
  rw [W3_v19, W3_v20]

theorem W4_v21_1 (c : Dev nD) :
    (W4 m ρ c (Proc.devRef .tc main_v21_1) : S1x64.Idx → EReal)
      = fun j : S1x64.Idx => Cert.Spec.colSum (btable m c) (ix1 (j 1)) := by
  refine (W4_arr m ρ c 3).trans ?_
  refine (Cert.KernelIdeal.Val1.arr1_3 (V3 m ρ) c).trans ?_
  show (fun j : S1x64.Idx => Cert.Spec.colSum (Cert.Spec.biased (W3 m ρ c (Proc.devRef .tc main_v19))
    (rowVec (W3 m ρ c (Proc.devRef .tc main_v20)))) (ix1 (j 1))) = _
  rw [W3_v19, W3_v20]

theorem W4_v21_2 (c : Dev nD) :
    (W4 m ρ c (Proc.devRef .tc main_v21_2) : S1x64.Idx → EReal)
      = fun j : S1x64.Idx => Cert.Spec.colSumSq (btable m c) (ix1 (j 1)) := by
  refine (W4_arr m ρ c 4).trans ?_
  refine (Cert.KernelIdeal.Val1.arr1_4 (V3 m ρ) c).trans ?_
  show (fun j : S1x64.Idx => Cert.Spec.colSumSq (Cert.Spec.biased (W3 m ρ c (Proc.devRef .tc main_v19))
    (rowVec (W3 m ρ c (Proc.devRef .tc main_v20)))) (ix1 (j 1))) = _
  rw [W3_v19, W3_v20]

/-! ## Between the last two regions: mean, variance, scale and shift -/

/-- A vector over the channels laid out as a row and read back as a vector is itself. -/
theorem cast_row (v : Cert.Spec.SCh.Idx → EReal) (j : S64.Idx) :
    shapeCast S64 (fun j' : S1x64.Idx => v (ix1 (j' 1))) Facts₀.shapeCasts_S1x64_S64 j = v j := by
  obtain ⟨i, rfl⟩ : ∃ i : Fin 64, j = ix1 i := ⟨j 0, eq_ix1 j⟩
  exact shapeCast_1a_a_apply (a := 64) _ Facts₀.shapeCasts_S1x64_S64 i

/-- A vector over the channels laid out as a row is read back by rowVec. -/
theorem rowVec_cast (v : S64.Idx → EReal) : rowVec (shapeCast S1x64 v Facts₀.shapeCasts_S64_S1x64) = v := by
  funext j
  exact (shapeCast_a_1a_apply (a := 64) v Facts₀.shapeCasts_S64_S1x64 (0 : Fin 1) (j 0)).trans
    (congrArg v (eq_ix1 j).symm)

/-- The mean as the host computes it from the first accumulator. -/
def hMean (c : Dev nD) : S64.Idx → EReal := fun j =>
  Ideal.div (shapeCast S64 (fun j' : S1x64.Idx => Cert.Spec.colSum (btable m c) (ix1 (j' 1))) Facts₀.shapeCasts_S1x64_S64 j)
    Cert.Spec.nRows

/-- The scale as the host computes it from the two accumulators. -/
def hScale (c : Dev nD) : S64.Idx → EReal := fun j =>
  gamma m c j * Ideal.rsqrt
    (Ideal.div (shapeCast S64 (fun j' : S1x64.Idx => Cert.Spec.colSumSq (btable m c) (ix1 (j' 1)))
        Facts₀.shapeCasts_S1x64_S64 j) Cert.Spec.nRows
      - hMean m c j * hMean m c j + Cert.Spec.eps)

theorem hMean_eq (c : Dev nD) : hMean m c = Cert.Spec.kMean (btable m c) := by
  funext j
  unfold hMean
  rw [cast_row]
  rfl

theorem hScale_eq (c : Dev nD) : hScale m c = Cert.Spec.kScale (btable m c) (gamma m c) := by
  funext j
  unfold hScale
  rw [cast_row, hMean_eq]
  rfl

theorem W5_v36 (c : Dev nD) :
    rowVec (W5 m ρ c (Proc.devRef .tc main_v36) : S1x64.Idx → EReal) = Cert.Spec.kScale (btable m c) (gamma m c) := by
  have e : (W5 m ρ c (Proc.devRef .tc main_v36) : S1x64.Idx → EReal)
      = shapeCast S1x64 (hScale m c) Facts₀.shapeCasts_S64_S1x64 := by
    dsimp only [W5, hostOps2]
    after_results
    rw [W4_arg6 m ρ c, W4_v21_1 m ρ c, W4_v21_2 m ρ c]
    rfl
  rw [e, rowVec_cast, hScale_eq]

set_option maxHeartbeats 1000000 in
theorem W5_v37 (c : Dev nD) :
    rowVec (W5 m ρ c (Proc.devRef .tc main_v37) : S1x64.Idx → EReal)
      = Cert.Spec.kShift (btable m c) (gamma m c) (beta m c) := by
  have e : (W5 m ρ c (Proc.devRef .tc main_v37) : S1x64.Idx → EReal)
      = shapeCast S1x64 (fun j => beta m c j - hMean m c j * hScale m c j) Facts₀.shapeCasts_S64_S1x64 := by
    dsimp only [W5, hostOps2]
    after_results
    rw [W4_arg6 m ρ c, W4_arg7 m ρ c, W4_v21_1 m ρ c, W4_v21_2 m ρ c]
    rfl
  rw [e, rowVec_cast, hScale_eq, hMean_eq]
  rfl

/-! ## The last region: scale, shift and cut -/

theorem result (c : Dev nD) :
    (W6 m ρ c (Proc.devRef .tc main_v38) : Cert.Spec.STab.Idx → EReal)
      = Cert.Spec.kOut (btable m c) (gamma m c) (beta m c) := by
  refine (W6_arr m ρ c 3).trans ?_
  refine (Cert.KernelIdeal.Val2.arr2_3 (V5 m ρ) c).trans ?_
  show Cert.Spec.affineRelu (W5 m ρ c (Proc.devRef .tc main_v21_0)) (rowVec (W5 m ρ c (Proc.devRef .tc main_v36)))
    (rowVec (W5 m ρ c (Proc.devRef .tc main_v37))) = _
  rw [W5_v36, W5_v37, W5_v21_0 m ρ c, W4_v21_0]
  rfl

end Cert.KernelIdeal.HostVal

end
-- ==== Proof.lean ====
/-
  A sparse 3 x 3 convolution by a pair table, followed by a training-mode batch normalisation and a cut at zero:
  the kernel program against its array-language reference, over the extended reals.

  Both programs gather feature rows by the same index arithmetic, multiply each gathered row with the weight matrix
  of its kernel offset (the kernel block by block on the matrix unit, the reference as one batched product: the
  same sums of 64 products), add the products into a zero table at the rows a second index table names, and add a
  bias per channel. They differ in the normalisation. The kernel accumulates per channel the sum and the sum of
  squares over the 200000 rows, forms mean and E[x^2] - mean^2, and applies x * scale + shift with
  scale = gamma * rsqrt(var + eps), shift = beta - mean * scale. The reference centres first, averages the squared
  deviations, and applies (x - mean) * rsqrt(var + eps) * gamma + beta. With finite inputs every entry of the table
  is a real number, the two variances are the same nonnegative real, var + eps is positive, and the two row formulas
  agree by distributivity. Both end with max(., 0).

  The frames of the two kernel programs are the generated ones; the reference's is its generated run with the
  result dropped. The idealisation rewrote nothing, so there is nothing to preserve.
-/
import proofs.«174729_j50354196578891_1_alg».proof.Defs
import proofs.«174729_j50354196578891_1_alg».proof.Proof.Gen.Kernel
import proofs.«174729_j50354196578891_1_alg».proof.Proof.Gen.Kernel.Skeleton
import proofs.«174729_j50354196578891_1_alg».proof.Proof.Gen.Kernel.Launch
import proofs.«174729_j50354196578891_1_alg».proof.Proof.Gen.Kernel.Points
import proofs.«174729_j50354196578891_1_alg».proof.Proof.Gen.Kernel.Frame
import proofs.«174729_j50354196578891_1_alg».proof.Proof.Gen.KernelIdeal
import proofs.«174729_j50354196578891_1_alg».proof.Proof.Gen.KernelIdeal.Skeleton
import proofs.«174729_j50354196578891_1_alg».proof.Proof.Gen.KernelIdeal.Launch
import proofs.«174729_j50354196578891_1_alg».proof.Proof.Gen.KernelIdeal.Points
import proofs.«174729_j50354196578891_1_alg».proof.Proof.Gen.KernelIdeal.Frame
import proofs.«174729_j50354196578891_1_alg».proof.Proof.Gen.ReferenceIdeal
import proofs.«174729_j50354196578891_1_alg».proof.Proof.Gen.ReferenceIdeal.Run
import proofs.«174729_j50354196578891_1_alg».proof.Proof.Gen.ReferenceIdeal.Read
import proofs.«174729_j50354196578891_1_alg».proof.Proof.Gen.Pre_finite_inputs
import proofs.«174729_j50354196578891_1_alg».proof.Proof.Spec
import proofs.«174729_j50354196578891_1_alg».proof.Proof.Algebra
import proofs.«174729_j50354196578891_1_alg».proof.Proof.PreReal
import proofs.«174729_j50354196578891_1_alg».proof.Proof.KernelRun
import proofs.«174729_j50354196578891_1_alg».proof.Proof.RefValue
import proofs.«174729_j50354196578891_1_alg».proof.Proof.TableReal
import proofs.«174729_j50354196578891_1_alg».proof.Proof.Host
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The kernel's result: the scale-and-shift normalisation of the biased table, cut below at zero. -/
def kernelResult (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v38) :=
  Cert.Spec.kOut (Cert.KernelIdeal.HostVal.btable m c) (Cert.KernelIdeal.HostVal.gamma m c)
    (Cert.KernelIdeal.HostVal.beta m c)

/-- From memories that agree on the arguments, the kernel's result buffer ends at the scale-and-shift
    normalisation of the biased table and the reference's at the centred one; on finite inputs these are one
    array. -/
theorem algebraic : Cert.algebraic_KernelIdeal_ReferenceIdeal := by
  intro m ρ m' ρ' hpre hagree
  refine ⟨fun c => m ((c.tc : Thread Cert.KernelIdeal.nD Cert.KernelIdeal.τ).loc Cert.KernelIdeal.main_arg0),
    kernelResult m, ?_, ?_⟩
  · refine (θ_run Cert.KernelIdeal.defs _ _).mono (fun r h c => ?_) (Cert.KernelIdeal.GenRun.run_result m ρ)
    obtain ⟨hv, h0, hrest⟩ := h c
    exact ⟨h0, hv.trans (Cert.KernelIdeal.HostVal.result m ρ c), h0, hrest⟩
  · refine (θ_run Cert.ReferenceIdeal.defs _ _).mono (fun r h c => ?_)
      (Cert.ReferenceIdeal.Value.run (F := Ideal) m' ρ')
    obtain ⟨h0, hv, hrest⟩ := h c
    obtain ⟨e0, e1, e2, e3, e4, e5, e6, e7⟩ := hagree c
    obtain ⟨r1, r4, r5, r6, r7⟩ := Cert.PreReal.finite_of_pre _ _ _ _ _ _ _ _ (hpre c)
    have key := Cert.Spec.kOut_eq_rOut (Cert.KernelIdeal.HostVal.btable m c) (Cert.KernelIdeal.HostVal.gamma m c)
      (Cert.KernelIdeal.HostVal.beta m c)
      (Cert.Spec.biased_isReal _ _ (Cert.ReferenceIdeal.RefValue.table_isReal _ _ _ _ r1 r4) r5) r6 r7
    refine ⟨h0.trans e0, ?_, hrest⟩
    unfold kernelResult
    rw [key, hv, Cert.ReferenceIdeal.Read.val_main_v47_eq, Cert.ReferenceIdeal.RefValue.ref_out, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
